-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x768 : Shape := ⟨3, ![64, 1024, 768]⟩
abbrev S1024x768 : Shape := ⟨2, ![1024, 768]⟩
abbrev S768 : Shape := ⟨1, ![768]⟩
abbrev S_ : Shape := ⟨0, ![]⟩

class Facts : Prop where
  bcast_S_S64x1024x768 : S_.BroadcastsInDim S64x1024x768 (![] : Fin 0 → Fin S64x1024x768.rank)
  reducesTo_S64x1024x768_S_d0_1_2 : S64x1024x768.ReducesTo [0, 1, 2] S_
  h_S_ : 0 < S_.numel
  bcast_S_S1024x768 : S_.BroadcastsInDim S1024x768 (![] : Fin 0 → Fin S1024x768.rank)
  reducesTo_S1024x768_S_d0_1 : S1024x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S64x1024x768 .f32) (main_arg1 : FVec F S1024x768 .f32) (main_arg2 : FVec F S768 .f32) (main_arg3 : FVec F S768 .f32) : IVec S_ 1 :=
  let main_v0 : FVec F S64x1024x768 .f32 := Host.absf main_arg0
  let main_cst : FVec F S_ .f32 := constant S_ .f32 0x7F800000#32
  let main_v1 : FVec F S64x1024x768 .f32 := broadcastInDim S64x1024x768 ![] bcast_S_S64x1024x768 main_cst
  let main_v2 : IVec S64x1024x768 1 := cmpf .olt main_v0 main_v1
  let main_c : IVec S_ 1 := constantI S_ 1 1#1
  let main_v3 : IVec S_ 1 := (fun x v => Host.reduce IntOp.andi x v reducesTo_S64x1024x768_S_d0_1_2 h_S_) main_v2 main_c
  let main_v4 : FVec F S1024x768 .f32 := Host.absf main_arg1
  let main_cst_0 : FVec F S_ .f32 := constant S_ .f32 0x7F800000#32
  let main_v5 : FVec F S1024x768 .f32 := broadcastInDim S1024x768 ![] bcast_S_S1024x768 main_cst_0
  let main_v6 : IVec S1024x768 1 := cmpf .olt main_v4 main_v5
  let main_c_1 : IVec S_ 1 := constantI S_ 1 1#1
  let main_v7 : IVec S_ 1 := (fun x v => Host.reduce IntOp.andi x v reducesTo_S1024x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S64x1024x768 : Shape := ⟨3, ![64, 1024, 768]⟩
abbrev S1024x768 : Shape := ⟨2, ![1024, 768]⟩
abbrev S768 : Shape := ⟨1, ![768]⟩
abbrev S65536x768 : Shape := ⟨2, ![65536, 768]⟩
abbrev S1x768 : Shape := ⟨2, ![1, 768]⟩
abbrev S3072x768 : Shape := ⟨2, ![3072, 768]⟩
abbrev S3x1024x768 : Shape := ⟨3, ![3, 1024, 768]⟩
abbrev S1x1024x768 : Shape := ⟨3, ![1, 1024, 768]⟩
abbrev S3072 : Shape := ⟨1, ![3072]⟩
abbrev S3072x1 : Shape := ⟨2, ![3072, 1]⟩

abbrev nBuf : Space → Nat
  | .hbm => 9
  | .vmem => 7
  | .smem => 0
  | _ => 0

abbrev bufTy : (tb : Table) → Fin (tcTables nBuf tb) → BufTy
  | .hbm, ⟨0, _⟩ => ⟨S64x1024x768, .f32⟩
  | .hbm, ⟨1, _⟩ => ⟨S1024x768, .f32⟩
  | .hbm, ⟨2, _⟩ => ⟨S768, .f32⟩
  | .hbm, ⟨3, _⟩ => ⟨S768, .f32⟩
  | .hbm, ⟨4, _⟩ => ⟨S65536x768, .f32⟩
  | .hbm, ⟨5, _⟩ => ⟨S1x768, .f32⟩
  | .hbm, ⟨6, _⟩ => ⟨S1x768, .f32⟩
  | .hbm, ⟨7, _⟩ => ⟨S65536x768, .f32⟩
  | .hbm, ⟨8, _⟩ => ⟨S64x1024x768, .f32⟩
  | .local _ .vmem, ⟨0, _⟩ => ⟨S3072x768, .f32⟩
  | .local _ .vmem, ⟨1, _⟩ => ⟨S3072x768, .f32⟩
  | .local _ .vmem, ⟨2, _⟩ => ⟨S1024x768, .f32⟩
  | .local _ .vmem, ⟨3, _⟩ => ⟨S1x768, .f32⟩
  | .local _ .vmem, ⟨4, _⟩ => ⟨S1x768, .f32⟩
  | .local _ .vmem, ⟨5, _⟩ => ⟨S3072x768, .f32⟩
  | .local _ .vmem, ⟨6, _⟩ => ⟨S3072x768, .f32⟩
  | _, _ => ⟨S64x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3072x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S3072x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64x1024x768_S65536x768 : S64x1024x768.ShapeCasts S65536x768
  shapeCasts_S768_S1x768 : S768.ShapeCasts S1x768
  inb_S3072x768_S3072x768_0_0 : ∀ a, (![0, 0] : Fin 2 → Nat) a + S3072x768.size a ≤ S3072x768.size a
  h_S3072x768 : 0 < S3072x768.numel
  shapeCasts_S3072x768_S3072x768 : S3072x768.ShapeCasts S3072x768
  inb_S1024x768_S1024x768_0_0 : ∀ a, (![0, 0] : Fin 2 → Nat) a + S1024x768.size a ≤ S1024x768.size a
  h_S1024x768 : 0 < S1024x768.numel
  shapeCasts_S3072x768_S3x1024x768 : S3072x768.ShapeCasts S3x1024x768
  shapeCasts_S1024x768_S1x1024x768 : S1024x768.ShapeCasts S1x1024x768
  broadcasts_S1x1024x768_S3x1024x768 : S1x1024x768.Broadcasts S3x1024x768
  shapeCasts_S3x1024x768_S3072x768 : S3x1024x768.ShapeCasts S3072x768
  reduces_S3072x768_S3072 : S3072x768.Reduces [1] S3072
  shapeCasts_S3072_S3072x1 : S3072.ShapeCasts S3072x1
  broadcasts_S3072x1_S3072x768 : S3072x1.Broadcasts S3072x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S3072x768 : S1x768.Broadcasts S3072x768
  shapeCasts_S65536x768_S64x1024x768 : S65536x768.ShapeCasts S64x1024x768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S3072x768.size a < S65536x768.size a
  hwx0_0 : ∀ i : grid0.Coords, EltTy.bits .f32 = 32 ∨ (Rect.unit (s := S65536x768) (fun a => cc0_transform_0 i a * S3072x768.size a) (fun a => (Pipeline.Clip.of (cc0_transform_0 i a) (S3072x768.size a) (S65536x768.size a)).extent (S3072x768.size a)) fun a => Pipeline.Clip.inb (Pipeline.Clip.ok_of (hstart0_0 i a))).WholeWords (EltTy.packing .f32)
  hwxs0_0 : ∀ i : grid0.Coords, EltTy.bits .f32 = 32 ∨ (Rect.unit (s := S3072x768) (fun _ => 0) (fun a => (Pipeline.Clip.of (cc0_transform_0 i a) (S3072x768.size a) (S65536x768.size a)).extent (S3072x768.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S1024x768.size a
  hwx0_1 : ∀ i : grid0.Coords, EltTy.bits .f32 = 32 ∨ (Rect.block (s := S1024x768) S1024x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S3072x768.size a < S65536x768.size a
  hwx0_4 : ∀ i : grid0.Coords, EltTy.bits .f32 = 32 ∨ (Rect.unit (s := S65536x768) (fun a => cc0_transform_4 i a * S3072x768.size a) (fun a => (Pipeline.Clip.of (cc0_transform_4 i a) (S3072x768.size a) (S65536x768.size a)).extent (S3072x768.size a)) fun a => Pipeline.Clip.inb (Pipeline.Clip.ok_of (hstart0_4 i a))).WholeWords (EltTy.packing .f32)
  hwxs0_4 : ∀ i : grid0.Coords, EltTy.bits .f32 = 32 ∨ (Rect.unit (s := S3072x768) (fun _ => 0) (fun a => (Pipeline.Clip.of (cc0_transform_4 i a) (S3072x768.size a) (S65536x768.size a)).extent (S3072x768.size a)) fun a => (Nat.zero_add _).trans_le (Pipeline.Clip.extent_le (Pipeline.Clip.ok_of (hstart0_4 i a)))).WholeWords (EltTy.packing .f32)

variable [Facts₀]

abbrev win0_0 : Pipeline.Window sig grid0 :=
  Pipeline.Window.ofSpecClip (Memref.whole main_v0) S3072x768.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S1024x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v3) S3072x768.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x1024x768 : Shape := ⟨3, ![64, 1024, 768]⟩
abbrev S1024x768 : Shape := ⟨2, ![1024, 768]⟩
abbrev S768 : Shape := ⟨1, ![768]⟩
abbrev S1024 : Shape := ⟨1, ![1024]⟩
abbrev S1x1024 : Shape := ⟨2, ![1, 1024]⟩
abbrev S64x1024 : Shape := ⟨2, ![64, 1024]⟩
abbrev S_ : Shape := ⟨0, ![]⟩
abbrev S64x1024x1 : Shape := ⟨3, ![64, 1024, 1]⟩
abbrev S1 : Shape := ⟨1, ![1]⟩
abbrev S1x1x1 : Shape := ⟨3, ![1, 1, 1]⟩
abbrev S1x1x768 : Shape := ⟨3, ![1, 1, 768]⟩

abbrev nBuf : Space → Nat
  | .hbm => 60
  | .vmem => 0
  | .smem => 0
  | _ => 0

abbrev bufTy : (tb : Table) → Fin (tcTables nBuf tb) → BufTy
  | .hbm, ⟨0, _⟩ => ⟨S64x1024x768, .f32⟩
  | .hbm, ⟨1, _⟩ => ⟨S1024x768, .f32⟩
  | .hbm, ⟨2, _⟩ => ⟨S768, .f32⟩
  | .hbm, ⟨3, _⟩ => ⟨S768, .f32⟩
  | .hbm, ⟨4, _⟩ => ⟨S1024, .i32⟩
  | .hbm, ⟨5, _⟩ => ⟨S1x1024, .i32⟩
  | .hbm, ⟨6, _⟩ => ⟨S64x1024, .i32⟩
  | .hbm, ⟨7, _⟩ => ⟨S_, .i32⟩
  | .hbm, ⟨8, _⟩ => ⟨S64x1024, .i32⟩
  | .hbm, ⟨9, _⟩ => ⟨S64x1024, .i1⟩
  | .hbm, ⟨10, _⟩ => ⟨S_, .i32⟩
  | .hbm, ⟨11, _⟩ => ⟨S64x1024, .i32⟩
  | .hbm, ⟨12, _⟩ => ⟨S64x1024, .i32⟩
  | .hbm, ⟨13, _⟩ => ⟨S64x1024, .i32⟩
  | .hbm, ⟨14, _⟩ => ⟨S64x1024x1, .i32⟩
  | .hbm, ⟨15, _⟩ => ⟨S1, .i32⟩
  | .hbm, ⟨16, _⟩ => ⟨S_, .i32⟩
  | .hbm, ⟨17, _⟩ => ⟨S64x1024x1, .i32⟩
  | .hbm, ⟨18, _⟩ => ⟨S64x1024x1, .i1⟩
  | .hbm, ⟨19, _⟩ => ⟨S1x1x1, .i32⟩
  | .hbm, ⟨20, _⟩ => ⟨S64x1024x1, .i32⟩
  | .hbm, ⟨21, _⟩ => ⟨S64x1024x1, .i1⟩
  | .hbm, ⟨22, _⟩ => ⟨S64x1024x1, .i1⟩
  | .hbm, ⟨23, _⟩ => ⟨S_, .i1⟩
  | .hbm, ⟨24, _⟩ => ⟨S64x1024, .i1⟩
  | .hbm, ⟨25, _⟩ => ⟨S64x1024x768, .f32⟩
  | .hbm, ⟨26, _⟩ => ⟨S64x1024x768, .i1⟩
  | .hbm, ⟨27, _⟩ => ⟨S_, .f32⟩
  | .hbm, ⟨28, _⟩ => ⟨S64x1024x768, .f32⟩
  | .hbm, ⟨29, _⟩ => ⟨S64x1024x768, .f32⟩
  | .hbm, ⟨30, _⟩ => ⟨S64x1024x768, .f32⟩
  | .hbm, ⟨31, _⟩ => ⟨S_, .f32⟩
  | .hbm, ⟨32, _⟩ => ⟨S64x1024, .f32⟩
  | .hbm, ⟨33, _⟩ => ⟨S64x1024x1, .f32⟩
  | .hbm, ⟨34, _⟩ => ⟨S_, .f32⟩
  | .hbm, ⟨35, _⟩ => ⟨S64x1024x1, .f32⟩
  | .hbm, ⟨36, _⟩ => ⟨S64x1024x1, .f32⟩
  | .hbm, ⟨37, _⟩ => ⟨S64x1024x768, .f32⟩
  | .hbm, ⟨38, _⟩ => ⟨S64x1024x768, .f32⟩
  | .hbm, ⟨39, _⟩ => ⟨S64x1024x768, .f32⟩
  | .hbm, ⟨40, _⟩ => ⟨S_, .f32⟩
  | .hbm, ⟨41, _⟩ => ⟨S64x1024, .f32⟩
  | .hbm, ⟨42, _⟩ => ⟨S64x1024x1, .f32⟩
  | .hbm, ⟨43, _⟩ => ⟨S_, .f32⟩
  | .hbm, ⟨44, _⟩ => ⟨S64x1024x1, .f32⟩
  | .hbm, ⟨45, _⟩ => ⟨S64x1024x1, .f32⟩
  | .hbm, ⟨46, _⟩ => ⟨S64x1024x768, .f32⟩
  | .hbm, ⟨47, _⟩ => ⟨S64x1024x768, .f32⟩
  | .hbm, ⟨48, _⟩ => ⟨S_, .f32⟩
  | .hbm, ⟨49, _⟩ => ⟨S64x1024x1, .f32⟩
  | .hbm, ⟨50, _⟩ => ⟨S64x1024x1, .f32⟩
  | .hbm, ⟨51, _⟩ => ⟨S64x1024x1, .f32⟩
  | .hbm, ⟨52, _⟩ => ⟨S64x1024x768, .f32⟩
  | .hbm, ⟨53, _⟩ => ⟨S64x1024x768, .f32⟩
  | .hbm, ⟨54, _⟩ => ⟨S1x1x768, .f32⟩
  | .hbm, ⟨55, _⟩ => ⟨S64x1024x768, .f32⟩
  | .hbm, ⟨56, _⟩ => ⟨S64x1024x768, .f32⟩
  | .hbm, ⟨57, _⟩ => ⟨S1x1x768, .f32⟩
  | .hbm, ⟨58, _⟩ => ⟨S64x1024x768, .f32⟩
  | .hbm, ⟨59, _⟩ => ⟨S64x1024x768, .f32⟩
  | _, _ => ⟨S64x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_cst_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S_S64x1024x1 : S_.BroadcastsInDim S64x1024x1 (![] : Fin 0 → Fin S64x1024x1.rank)
  bcast_S1_S1x1x1_2 : S1.BroadcastsInDim S1x1x1 (![2] : Fin 1 → Fin S1x1x1.rank)
  bcast_S1x1x1_S64x1024x1_0_1_2 : S1x1x1.BroadcastsInDim S64x1024x1 (![0, 1, 2] : Fin 3 → Fin S64x1024x1.rank)
  reducesTo_S64x1024x1_S64x1024_d2 : S64x1024x1.ReducesTo [2] S64x1024
  h_S_ : 0 < S_.numel
  bcast_S64x1024_S64x1024x768_0_1 : S64x1024.BroadcastsInDim S64x1024x768 (![0, 1] : Fin 2 → Fin S64x1024x768.rank)
  bcast_S_S64x1024x768 : S_.BroadcastsInDim S64x1024x768 (![] : Fin 0 → Fin S64x1024x768.rank)
  reducesTo_S64x1024x768_S64x1024_d2 : S64x1024x768.ReducesTo [2] S64x1024
  bcast_S64x1024x1_S64x1024x768_0_1_2 : S64x1024x1.BroadcastsInDim S64x1024x768 (![0, 1, 2] : Fin 3 → Fin S64x1024x768.rank)
  bcast_S768_S1x1x768_2 : S768.BroadcastsInDim S1x1x768 (![2] : Fin 1 → Fin S1x1x768.rank)
  bcast_S1x1x768_S64x1024x768_0_1_2 : S1x1x768.BroadcastsInDim S64x1024x768 (![0, 1, 2] : Fin 3 → Fin S64x1024x768.rank)
  gather_S1024x768_S64x1024x1_S64x1024x768_2_0_n_n_0_2_1768_wf : GatherDims.WF S1024x768 S64x1024x1 S64x1024x768 [2] [0] [] [0] [] 2 ![1, 768]

variable [Facts₀]

def gather_S1024x768_S64x1024x1_S64x1024x768_2_0_n_n_0_2_1768 : GatherDims S1024x768 S64x1024x1 S64x1024x768 where
  offsetDims := [2]
  collapsedSliceDims := [0]
  operandBatchingDims := []
  startIndicesBatchingDims := []
  startIndexMap := [0]
  indexVectorDim := 2
  sliceSizes := ![1, 768]
  wf := gather_S1024x768_S64x1024x1_S64x1024x768_2_0_n_n_0_2_1768_wf

class Facts : Prop extends Facts₀ where

variable [Facts]
-- ==== Proof.Spec.lean ====
/-
  Layer normalisation of one row, as the two programs compute it on the extended reals, and the array it produces.

  A row `h : Fin 768 → EReal` has mean `(∑ h) / 768`, centred entries `h j − mean`, and variance
  `(∑ (h − mean)²) / 768`. One program scales the centred entry by the reciprocal square root of
  `variance + ε`; the other divides it by the square root of the same number. When every entry of the row is a
  real number the variance is a non-negative real, `variance + ε` is a positive real (ε is a positive real), its
  square root is a positive real `s`, and both `c · s⁻¹` and `c / s` are the real quotient: the two rows agree
  entry by entry (`rowK_eq_rowR`). The affine step `· γ + β` is the same on both sides and needs nothing of γ, β.

  The result array of shape [64, 1024, 768] at (b, n, j) is the row `k ↦ x (b, n, k) + p (n, k)` normalised,
  read at `j`, scaled by `γ j` and shifted by `β j` (`G` with the quotient, `GK` with the reciprocal root).
-/
import Idealize.ShloMosaic.PureOps.Ideal
import Idealize.ShloMosaic.PureOps.Ideal.Laws
import Idealize.ShloMosaic.Lib.ValueIdx

noncomputable section

namespace Cert.LayerNorm

open Idealize.ShloMosaic Idealize.ShloMosaic.ValueIdx
open scoped BigOperators

/-- The row length as both programs spell it: the f32 pattern of 768. -/
abbrev n768 : EReal := Ideal.ofBits .f32 0x44400000#32
/-- The variance offset as both programs spell it: the f32 pattern nearest 1e-12. -/
abbrev eps : EReal := Ideal.ofBits .f32 0x2B8CBCCC#32

/-- The mean of a row. -/
def mean (h : Fin 768 → EReal) : EReal := Ideal.div (∑ k, h k) n768
/-- A row's entry less the row's mean. -/
def cen (h : Fin 768 → EReal) (j : Fin 768) : EReal := h j - mean h
/-- The mean of the squared centred entries. -/
def var (h : Fin 768 → EReal) : EReal := Ideal.div (∑ k, cen h k * cen h k) n768
/-- The normalised row by the RECIPROCAL square root, then `· g + b`. -/
def rowK (h : Fin 768 → EReal) (g b : EReal) (j : Fin 768) : EReal :=
  cen h j * Ideal.rsqrt (var h + eps) * g + b
/-- The normalised row by the QUOTIENT with the square root, then `· g + b`. -/
def rowR (h : Fin 768 → EReal) (g b : EReal) (j : Fin 768) : EReal :=
  Ideal.div (cen h j) (Ideal.sqrt (var h + eps)) * g + b

/-- A finite sum of real numbers, taken in the extended reals, is the real sum. -/
theorem coe_sum {ι : Type*} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The row length is the real number 768. -/
theorem n768_eq : n768 = ((768 : ℝ) : EReal) := by
  simp [n768, Ideal.ofBits, Ideal.ieee, -EReal.coe_mul]; norm_num

/-- The variance offset is a positive real number. -/
theorem eps_pos : ∃ e : ℝ, 0 < e ∧ eps = (e : EReal) := by
  refine ⟨_, ?_, by simp [eps, Ideal.ofBits, Ideal.ieee, -EReal.coe_mul]; rfl⟩
  positivity

/-- The mean of a real row is the real mean. -/
theorem mean_coe (f : Fin 768 → ℝ) :
    mean (fun k => (f k : EReal)) = (((∑ k, f k) * (1 / 768) : ℝ) : EReal) := by
  unfold mean
  rw [n768_eq, Ideal.div_coe (by norm_num), coe_sum, ← EReal.coe_mul]

/-- A centred entry of a real row is the real difference. -/
theorem cen_coe (f : Fin 768 → ℝ) (j : Fin 768) :
    cen (fun k => (f k : EReal)) j = ((f j - (∑ k, f k) * (1 / 768) : ℝ) : EReal) := by
  unfold cen
  rw [mean_coe, ← EReal.coe_sub]

/-- The variance of a real row is the real variance. -/
theorem var_coe (f : Fin 768 → ℝ) :
    var (fun k => (f k : EReal))
      = (((∑ k, (f k - (∑ i, f i) * (1 / 768)) * (f k - (∑ i, f i) * (1 / 768))) * (1 / 768) : ℝ) : EReal) := by
  unfold var
  simp_rw [cen_coe, ← EReal.coe_mul]
  rw [coe_sum, n768_eq, Ideal.div_coe (by norm_num), ← EReal.coe_mul]

/-- At a positive real `y`, scaling by the reciprocal square root is dividing by the square root:
    both are the product with `(√y)⁻¹`. -/
theorem mul_rsqrt_eq_div_sqrt (c : EReal) (y : ℝ) (hy : 0 < y) :
    c * Ideal.rsqrt (y : EReal) = Ideal.div c (Ideal.sqrt (y : EReal)) := by
  have hs : Real.sqrt y ≠ 0 := (Real.sqrt_pos.mpr hy).ne'
  rw [Ideal.rsqrt_coe, Ideal.sqrt_coe, if_neg (not_lt.mpr hy.le), if_neg hy.ne', if_neg (not_lt.mpr hy.le),
    Ideal.div_coe hs, one_div]

/-- On a row of real numbers the two normalisations agree. -/
theorem rowK_eq_rowR (h : Fin 768 → EReal) (hh : ∀ k, ∃ r : ℝ, h k = (r : EReal)) (g b : EReal) (j : Fin 768) :
    rowK h g b j = rowR h g b j := by
  choose f hf using hh
  obtain rfl : h = fun k => (f k : EReal) := funext hf
  obtain ⟨e, he, hee⟩ := eps_pos
  unfold rowK rowR
  rw [var_coe, hee, ← EReal.coe_add]
  rw [mul_rsqrt_eq_div_sqrt _ _
    (add_pos_of_nonneg_of_pos
      (mul_nonneg (Finset.sum_nonneg fun k _ => mul_self_nonneg _) (by norm_num)) he)]

abbrev SX : Shape := ⟨3, ![64, 1024, 768]⟩
abbrev SP : Shape := ⟨2, ![1024, 768]⟩
abbrev SV : Shape := ⟨1, ![768]⟩

/-- The row of `x + p` at batch `b` and position `n`. -/
def hrow (x : SX.Idx → EReal) (p : SP.Idx → EReal) (b : Fin 64) (n : Fin 1024) : Fin 768 → EReal :=
  fun k => x (ix3 b n k) + p (ix2 n k)

/-- The result array, by the quotient with the square root. -/
def G (x : SX.Idx → EReal) (p : SP.Idx → EReal) (γ β : SV.Idx → EReal) : SX.Idx → EReal :=
  fun i => rowR (hrow x p (i 0) (i 1)) (γ (ix1 (i 2))) (β (ix1 (i 2))) (i 2)
/-- The result array, by the reciprocal square root. -/
def GK (x : SX.Idx → EReal) (p : SP.Idx → EReal) (γ β : SV.Idx → EReal) : SX.Idx → EReal :=
  fun i => rowK (hrow x p (i 0) (i 1)) (γ (ix1 (i 2))) (β (ix1 (i 2))) (i 2)

/-- On real `x` and `p` the two arrays are one. -/
theorem GK_eq_G (x : SX.Idx → EReal) (p : SP.Idx → EReal) (γ β : SV.Idx → EReal)
    (hx : ∀ i, ∃ r : ℝ, x i = (r : EReal)) (hp : ∀ i, ∃ r : ℝ, p i = (r : EReal)) : GK x p γ β = G x p γ β := by
  funext i
  refine rowK_eq_rowR _ (fun k => ?_) _ _ _
  obtain ⟨a, ha⟩ := hx (ix3 (i 0) (i 1) k)
  obtain ⟨c, hc⟩ := hp (ix2 (i 1) k)
  exact ⟨a + c, by unfold hrow; rw [ha, hc, EReal.coe_add]⟩

end Cert.LayerNorm

end
-- ==== Proof.Finite.lean ====
/-
  From the precondition to real entries.

  The precondition is the conjunction, over the four argument arrays, of "every entry `a` has `|a| < +∞`", where
  `|a|` is `max a (-a)` on the extended reals, `+∞` is spelt as the f32 pattern `0x7F800000`, "every" is a reduction
  by `and` over all axes starting from 1, and the four results are joined by `and`. A conjunction that is 1 has
  both its parts 1; a reduction by `and` over all axes that is 1 met only 1s; and an extended real `a` with
  `max a (-a) < ⊤` is neither `⊤` nor `⊥`, hence a real number. Read at the first two arrays this gives that
  every entry of each is a real number.
-/
import proofs.«114764_g67765993996428_cont_9to1_m_62_20_alg».proof.Defs
import proofs.«114764_g67765993996428_cont_9to1_m_62_20_alg».proof.Proof.Gen.Pre_finite_inputs
import proofs.«114764_g67765993996428_cont_9to1_m_62_20_alg».proof.Proof.Spec
import Idealize.ShloMosaic.Lib.ReduceAll
import Idealize.ShloMosaic.Lib.Affine
import Idealize.ShloMosaic.Lib.ValueIdx
import Idealize.ShloMosaic.PureOps.Ideal
import Idealize.ShloMosaic.PureOps.Ideal.Laws

namespace Cert.LayerNorm.Finite

open Idealize.ShloMosaic Idealize.SL.Sem

/-- The index set of the rank-0 shape has one element. -/
instance : Subsingleton Cert.Pre_finite_inputs.S_.Idx := ⟨fun a b => funext fun d => d.elim0⟩

/-- An extended real whose absolute value `max x (-x)` lies strictly below `+∞` (the f32 pattern `0x7F800000`)
    is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- If the test `|x i| < +∞`, taken entry by entry over an array and reduced by `and` over all its axes, is 1,
    every entry of the array is a real number. -/
theorem real_of_all {s : Shape} {axes : List (Fin s.rank)} (x : s.Idx → EReal) (top : s.Idx → EReal)
    (htop : ∀ i, top i = Ideal.ofBits .f32 0x7F800000#32)
    (init : Cert.Pre_finite_inputs.S_.Idx → BitVec 1) (hr : s.ReducesTo axes Cert.Pre_finite_inputs.S_)
    (hu : 0 < Cert.Pre_finite_inputs.S_.numel)
    (e : Host.reduce IntOp.andi (cmpf (F := Ideal) (φ := .f32) .olt (Host.absf (F := Ideal) (φ := .f32) x) top) init hr hu
      ValueIdx.ix0 = 1#1) (i : s.Idx) : ∃ r : ℝ, x i = (r : EReal) := by
  have hi := Host.reduce_andi_all _ init hr hu ValueIdx.ix0 e i
  refine real_of_abs_lt (x i) ?_
  rw [← htop i]
  exact hi

/-- Under the precondition every entry of the first two argument arrays is a real number. -/
theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) := by
  have h0 := congrFun (h c) ValueIdx.ix0
  dsimp only [Cert.Pre_finite_inputs.fn, Cert.Pre_finite_inputs.fn_part1, andi] at h0
  obtain ⟨h012, -⟩ := IntOp.andi_eq_one.1 h0
  obtain ⟨h01, -⟩ := IntOp.andi_eq_one.1 h012
  obtain ⟨hx, hp⟩ := IntOp.andi_eq_one.1 h01
  exact ⟨fun i => real_of_all _ _ (fun _ => rfl) _ _ _ hx i, fun i => real_of_all _ _ (fun _ => rfl) _ _ _ hp i⟩

end Cert.LayerNorm.Finite
-- ==== Proof.Payload.lean ====
/-
  The kernel body's stored value, read at one index, on the extended reals.

  The body adds to each of the three 1024-row slabs of a [3072, 768] block the [1024, 768] table, so that row r of the
  sum is k ↦ X (r, k) + Pm (r mod 1024, k). Of each summed row it takes the mean (the lane sum over 768), the centred
  entries, the mean of their squares, and the reciprocal square root of that mean plus ε; the stored entry at (r, j) is
  the centred entry times the reciprocal root, times the gain Gm (0, j), plus the bias Bm (0, j): the row's
  normalisation by the reciprocal root, read at j (`pay_apply`).
-/
import proofs.«114764_g67765993996428_cont_9to1_m_62_20_alg».proof.Proof.Gen.KernelIdeal.Skeleton
import proofs.«114764_g67765993996428_cont_9to1_m_62_20_alg».proof.Proof.Gen.KernelIdeal
import proofs.«114764_g67765993996428_cont_9to1_m_62_20_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayIdx
open Idealize.ShloMosaic Idealize.ShloMosaic.ValueIdx Cert.KernelIdeal Cert.KernelIdeal.Gen
open scoped BigOperators

/-! ## Layout operations of this body, read at an index given by coordinates -/

section Layout
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` slab broadcast over `a` slabs reads, at `(q, i, j)`, the slab at `(i, j)`. -/
theorem broadcastTo_1bc_abc_apply {a b c : ℕ} (v : (⟨3, ![1, b, c]⟩ : Shape).Idx → α)
    (h : (⟨3, ![1, b, c]⟩ : Shape).Broadcasts ⟨3, ![a, b, c]⟩) (q : Fin a) (i : Fin b) (j : Fin c) :
    broadcastTo ⟨3, ![a, b, c]⟩ v h (ix3 q i j) = v (ix3 (0 : Fin 1) i j) := by
  refine broadcastTo_apply v h (ix3 q i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

/-- The `[3072, 768]` block viewed `[3, 1024, 768]` reads, at `(q, n, k)`, the block's row `1024 q + n` at `k`. -/
theorem shapeCast_split_apply (x : S3072x768.Idx → α) (h : S3072x768.ShapeCasts S3x1024x768)
    (q : Fin 3) (n : Fin 1024) (k : Fin 768) (r : Fin 3072) (hr : r.val = q.val * 1024 + n.val) :
    shapeCast S3x1024x768 x h (ix3 q n k) = x (ix2 r k) :=
  shapeCast_apply x h _ _ (by
    rw [Shape.rowMajor_val_three, Shape.rowMajor_val_two]
    show r.val * 768 + k.val = (q.val * 1024 + n.val) * 768 + k.val
    rw [hr])

/-- The `[3, 1024, 768]` array viewed `[3072, 768]` reads, at row `r = 1024 q + n` and lane `k`, the array at `(q, n, k)`. -/
theorem shapeCast_merge_apply (x : S3x1024x768.Idx → α) (h : S3x1024x768.ShapeCasts S3072x768)
    (r : Fin 3072) (k : Fin 768) (q : Fin 3) (n : Fin 1024) (hr : r.val = q.val * 1024 + n.val) :
    shapeCast S3072x768 x h (ix2 r k) = x (ix3 q n k) :=
  shapeCast_apply x h _ _ (by
    rw [Shape.rowMajor_val_three, Shape.rowMajor_val_two]
    show (q.val * 1024 + n.val) * 768 + k.val = r.val * 768 + k.val
    rw [hr])

end Layout

/-! ## The body's value, in named stages -/

/-- The summed rows: the block plus the positional table laid under each of its three slabs. -/
def rows (X : Vec Ideal S3072x768 .f32) (Pm : Vec Ideal S1024x768 .f32) : FVec Ideal S3072x768 .f32 :=
  shapeCast S3072x768
    (addf (shapeCast S3x1024x768 (shapeCast S3072x768 X shapeCasts_S3072x768_S3072x768) shapeCasts_S3072x768_S3x1024x768)
      (broadcastTo S3x1024x768 (shapeCast S1x1024x768 Pm shapeCasts_S1024x768_S1x1024x768) broadcasts_S1x1024x768_S3x1024x768))
    shapeCasts_S3x1024x768_S3072x768

/-- The summed rows at row `r`, lane `k`: the block there plus the table at row `r mod 1024`. -/
theorem rows_apply (X : Vec Ideal S3072x768 .f32) (Pm : Vec Ideal S1024x768 .f32) (r : Fin 3072) (k : Fin 768) :
    rows X Pm (ix2 r k)
      = X (ix2 r k) + Pm (ix2 (⟨r.val % 1024, Nat.mod_lt _ (by decide)⟩ : Fin 1024) k) := by
  have hq : r.val / 1024 < 3 := by have := r.isLt; omega
  have hr : r.val = (⟨r.val / 1024, hq⟩ : Fin 3).val * 1024 + (⟨r.val % 1024, Nat.mod_lt _ (by decide)⟩ : Fin 1024).val := by
    show r.val = r.val / 1024 * 1024 + r.val % 1024
    omega
  unfold rows
  refine (shapeCast_merge_apply _ _ r k ⟨r.val / 1024, hq⟩ ⟨r.val % 1024, Nat.mod_lt _ (by decide)⟩ hr).trans ?_
  refine (addf_apply _ _ _).trans ?_
  refine congrArg₂ (· + ·) ?_ ?_
  · refine (shapeCast_split_apply _ _ _ _ k r hr).trans ?_
    rw [shapeCast_self]
  · refine (broadcastTo_1bc_abc_apply _ _ _ _ _).trans ?_
    exact shapeCast_ab_1ab_apply _ _ _ _ _

/-- The source index over row `r` with lane `k` inserted is `(r, k)`. -/
theorem lift_row (r : Fin 3072) (k : Fin 768) : reduces_S3072x768_S3072.lift (ix1 r) k = ix2 r k := by
  funext c
  match c with
  | ⟨0, _⟩ => exact Fin.ext rfl
  | ⟨1, _⟩ => exact Fin.ext rfl

/-- The lane sum of a block at row `r` is the sum over the 768 lanes of that row. -/
theorem rowSum_apply (V : FVec Ideal S3072x768 .f32) (r : Fin 3072) :
    multiReduction (F := Ideal) .add [1] S3072 V 0x00000000#32 reduces_S3072x768_S3072 (.inl rfl) rfl (ix1 r)
      = ∑ k : Fin 768, V (ix2 r k) := by
  refine (Ideal.multiReduction_add_single V 0x00000000#32 reduces_S3072x768_S3072 (.inl rfl) rfl (ix1 r)).trans ?_
  exact Finset.sum_congr rfl fun k _ => congrArg V (lift_row r k)

/-- The column of row means: each row's lane sum over the row length. -/
def colMean (V : FVec Ideal S3072x768 .f32) : FVec Ideal S3072x1 .f32 :=
  divf (shapeCast S3072x1 (multiReduction (F := Ideal) .add [1] S3072 V 0x00000000#32 reduces_S3072x768_S3072 (.inl rfl) rfl)
      shapeCasts_S3072_S3072x1)
    (broadcast S3072x1 (Scalar.ofBits .f32 0x44400000#32))

/-- The column of row means at row `r`: the sum over the row's lanes, divided by the row length. -/
theorem colMean_apply (V : FVec Ideal S3072x768 .f32) (r : Fin 3072) (u : Fin 1) :
    colMean V (ix2 r u) = Ideal.div (∑ k : Fin 768, V (ix2 r k)) Cert.LayerNorm.n768 := by
  unfold colMean
  refine (divf_apply _ _ _).trans ?_
  refine congrArg₂ Ideal.div ?_ rfl
  refine (shapeCast_a_a1_apply _ _ r u).trans ?_
  exact rowSum_apply V r

/-- A block less its column of row means. -/
def centred (V : FVec Ideal S3072x768 .f32) : FVec Ideal S3072x768 .f32 :=
  subf V (broadcastTo S3072x768 (colMean V) broadcasts_S3072x1_S3072x768)

/-- The centred block at `(r, j)`: the entry less its row's mean. -/
theorem centred_apply (V : FVec Ideal S3072x768 .f32) (r : Fin 3072) (j : Fin 768) :
    centred V (ix2 r j) = V (ix2 r j) - Ideal.div (∑ k : Fin 768, V (ix2 r k)) Cert.LayerNorm.n768 := by
  unfold centred
  refine (subf_apply _ _ _).trans ?_
  refine congrArg (V (ix2 r j) - ·) ?_
  refine (broadcastTo_a1_ab_apply _ _ r j).trans ?_
  exact colMean_apply V r 0

/-- The column of reciprocal roots: of each row's mean squared centred entry plus the offset. -/
def scale (V : FVec Ideal S3072x768 .f32) : FVec Ideal S3072x1 .f32 :=
  rsqrt (addf (colMean (mulf (centred V) (centred V))) (broadcast S3072x1 (Scalar.ofBits .f32 0x2B8CBCCC#32)))

/-- The column of reciprocal roots at row `r`. -/
theorem scale_apply (V : FVec Ideal S3072x768 .f32) (r : Fin 3072) (u : Fin 1) :
    scale V (ix2 r u)
      = Ideal.rsqrt (Ideal.div (∑ k : Fin 768, centred V (ix2 r k) * centred V (ix2 r k)) Cert.LayerNorm.n768
          + Cert.LayerNorm.eps) := by
  unfold scale
  show Ideal.rsqrt (addf (colMean (mulf (centred V) (centred V))) (broadcast S3072x1 (Scalar.ofBits .f32 0x2B8CBCCC#32)) (ix2 r u)) = _
  refine congrArg Ideal.rsqrt ?_
  refine (addf_apply _ _ _).trans ?_
  refine congrArg₂ (· + ·) ?_ rfl
  refine (colMean_apply _ r u).trans ?_
  rfl

/-- The body's stored value is the centred summed rows, scaled by their reciprocal roots, times the gain row plus the bias row. -/
theorem k0_pay1_eq (X : Vec Ideal S3072x768 .f32) (Pm : Vec Ideal S1024x768 .f32) (Gm Bm : Vec Ideal S1x768 .f32) :
    k0_pay1 (F := Ideal) X Pm Gm Bm
      = addf (mulf (mulf (centred (rows X Pm)) (broadcastTo S3072x768 (scale (rows X Pm)) broadcasts_S3072x1_S3072x768))
            (broadcastTo S3072x768 (shapeCast S1x768 Gm shapeCasts_S1x768_S1x768) broadcasts_S1x768_S3072x768))
          (broadcastTo S3072x768 (shapeCast S1x768 Bm shapeCasts_S1x768_S1x768) broadcasts_S1x768_S3072x768) := rfl

/-- The centred summed rows at `(r, j)` are the centred entry of the row `k ↦ X (r, k) + Pm (r mod 1024, k)`. -/
theorem centred_rows_apply (X : Vec Ideal S3072x768 .f32) (Pm : Vec Ideal S1024x768 .f32) (r : Fin 3072) (j : Fin 768) :
    centred (rows X Pm) (ix2 r j)
      = Cert.LayerNorm.cen (fun k => X (ix2 r k) + Pm (ix2 (⟨r.val % 1024, Nat.mod_lt _ (by decide)⟩ : Fin 1024) k)) j := by
  refine (centred_apply _ r j).trans ?_
  unfold Cert.LayerNorm.cen Cert.LayerNorm.mean
  refine congrArg₂ (· - ·) (rows_apply X Pm r j) ?_
  refine congrArg (Ideal.div · Cert.LayerNorm.n768) ?_
  exact Finset.sum_congr rfl fun k _ => rows_apply X Pm r k

/-- The reciprocal root of the summed rows at row `r` is that of the row's variance plus the offset. -/
theorem scale_rows_apply (X : Vec Ideal S3072x768 .f32) (Pm : Vec Ideal S1024x768 .f32) (r : Fin 3072) (u : Fin 1) :
    scale (rows X Pm) (ix2 r u)
      = Ideal.rsqrt (Cert.LayerNorm.var (fun k => X (ix2 r k) + Pm (ix2 (⟨r.val % 1024, Nat.mod_lt _ (by decide)⟩ : Fin 1024) k))
          + Cert.LayerNorm.eps) := by
  refine (scale_apply _ r u).trans ?_
  unfold Cert.LayerNorm.var
  refine congrArg (fun s => Ideal.rsqrt (Ideal.div s Cert.LayerNorm.n768 + Cert.LayerNorm.eps)) ?_
  exact Finset.sum_congr rfl fun k _ => congrArg₂ (· * ·) (centred_rows_apply X Pm r k) (centred_rows_apply X Pm r k)

/-- The stored block at row r, lane j: the row k ↦ X (r, k) + Pm (r mod 1024, k), normalised by the reciprocal root, at j, times Gm (0, j) plus Bm (0, j). -/
theorem pay_apply [Cert.KernelIdeal.Facts] (X : Vec Ideal S3072x768 .f32) (Pm : Vec Ideal S1024x768 .f32) (Gm Bm : Vec Ideal S1x768 .f32)
    (r : Fin 3072) (j : Fin 768) :
    k0_pay1 (F := Ideal) X Pm Gm Bm (ix2 r j)
      = Cert.LayerNorm.rowK (fun k => X (ix2 r k) + Pm (ix2 (⟨r.val % 1024, Nat.mod_lt _ (by decide)⟩ : Fin 1024) k)) (Gm (ix2 (0 : Fin 1) j)) (Bm (ix2 (0 : Fin 1) j)) j := by
  refine (congrFun (k0_pay1_eq X Pm Gm Bm) (ix2 r j)).trans ?_
  unfold Cert.LayerNorm.rowK
  refine (addf_apply _ _ _).trans ?_
  refine congrArg₂ (· + ·) ?_ ?_
  · refine (mulf_apply _ _ _).trans ?_
    refine congrArg₂ (· * ·) ?_ ?_
    · refine (mulf_apply _ _ _).trans ?_
      refine congrArg₂ (· * ·) (centred_rows_apply X Pm r j) ?_
      refine (broadcastTo_a1_ab_apply _ _ r j).trans ?_
      exact scale_rows_apply X Pm r 0
    · refine (broadcastTo_1b_ab_apply _ _ r j).trans ?_
      rw [shapeCast_self]
  · refine (broadcastTo_1b_ab_apply _ _ r j).trans ?_
    rw [shapeCast_self]

end Cert.KernelIdeal.PayIdx

end
-- ==== Proof.BodyBits.lean ====
/-
  The kernel body as a triple, at any float instance.

  The body reads four whole staging buffers — a 3072 × 768 block of rows, the 1024 × 768 position table, and the
  two 1 × 768 affine rows —, computes one 3072 × 768 block from them, and stores it whole into the fifth. So from
  any contents `x0 x1 x2 x3` of the four and anything in the fifth it ends with the four unchanged and the fifth
  holding that block as a function of `x0 x1 x2 x3` (`outv`), which is the body's one stored value at the four
  contents (`outv_eq`): every access is the buffer's whole rectangle at offset zero.
-/
import proofs.«114764_g67765993996428_cont_9to1_m_62_20_alg».proof.Proof.Gen.Kernel.Frame
import proofs.«114764_g67765993996428_cont_9to1_m_62_20_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole rectangle of a 3072 × 768 buffer, of the table's, and of a 1 × 768 row's. -/
abbrev rX : Rect S3072x768 := Rect.unit (s := S3072x768) ![0, 0] S3072x768.size inb_S3072x768_S3072x768_0_0
abbrev rP : Rect S1024x768 := Rect.unit (s := S1024x768) ![0, 0] S1024x768.size inb_S1024x768_S1024x768_0_0
abbrev rV : Rect S1x768 := Rect.unit (s := S1x768) ![0, 0] S1x768.size inb_S1x768_S1x768_0_0

/-- What the fifth buffer holds after the body: its one store, of the stored value at the four loads. -/
def outv (x0 : Vec F S3072x768 .f32) (x1 : Vec F S1024x768 .f32) (x2 x3 : Vec F S1x768 .f32) : Vec F S3072x768 .f32 :=
  View.canon [⟨rX, k0_pay1 (View.ld x0 rX) (View.ld x1 rP) (View.ld x2 rV) (View.ld x3 rV)⟩]

/-- The store's rectangle is the whole buffer. -/
theorem hz2 : (![0, 0] : Fin 2 → Nat) = fun _ => 0 := funext fun a => by fin_cases a <;> rfl

theorem cover_out (p0 : Vec F S3072x768 .f32) (y : S3072x768.Idx) :
    ∃ pc ∈ ([⟨rX, p0⟩] : List (View.Piece (Elt F) S3072x768 .f32)), y ∈ pc.1.set :=
  ⟨_, List.mem_singleton_self _, View.mem_set_unit_zero hz2 inb_S3072x768_S3072x768_0_0 y⟩

/-- Whole-rectangle loads read the contents and the whole-rectangle store writes the value: the fifth buffer ends
    at the stored value of the four contents. -/
theorem outv_eq (x0 : Vec F S3072x768 .f32) (x1 : Vec F S1024x768 .f32) (x2 x3 : Vec F S1x768 .f32) :
    outv x0 x1 x2 x3 = k0_pay1 x0 x1 x2 x3 := by
  unfold outv
  rw [View.canon_unit_zero hz2]
  simp only [View.ld_unit_zero (S := S3072x768) hz2, View.ld_unit_zero (S := S1024x768) hz2, View.ld_unit_zero (S := S1x768) hz2]

set_option maxHeartbeats 1000000 in
/-- The body on whole staging memrefs: the four inputs' at read contents and the fifth at anything run to the
    continuation holding the four as they were and the fifth at `outv` of them. -/
theorem sound_kernel (c : Dev nD) (E : Set ℕ) (i : grid0.Coords)
    (arg1 : Memref sig .tc .vmem S3072x768 .f32) (harg1 : arg1.IsWhole) (arg2 : Memref sig .tc .vmem S1024x768 .f32) (harg2 : arg2.IsWhole)
    (arg3 : Memref sig .tc .vmem S1x768 .f32) (harg3 : arg3.IsWhole) (arg4 : Memref sig .tc .vmem S1x768 .f32) (harg4 : arg4.IsWhole)
    (arg5 : Memref sig .tc .vmem S3072x768 .f32) (harg5 : arg5.IsWhole)
    (x0 : Vec F S3072x768 .f32) (x1 : Vec F S1024x768 .f32) (x2 x3 : Vec F S1x768 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outv x0 x1 x2 x3)) -∗ K ⟨⟩))
      ⊢ wp frame (wpE (defs₀ (F := F)) Variants.none c none) E (cc0__ln_kernel i arg1 harg1 arg2 harg2 arg3 harg3 arg4 harg4 arg5 harg5) K := by
  simp only [cc0__ln_kernel_eq_skeleton]; unfold cc0__ln_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

end Cert.Kernel.Body

end
-- ==== Proof.DatBits.lean ====
/-
  The proof data of the kernel's one pipeline, at any float instance.

  At grid point `t` the body is handed the block of 3072 rows of the flattened input that starts at row 3072·t
  — its part inside the 65536-row array; the last block has 1024 such rows, and the staging buffer's other 2048
  rows hold words nothing names —, the whole position table, and the two affine rows. It leaves the four as it
  found them and the fifth buffer at its one stored value of the four. The proof data names, per window, what the
  body leaves: the inputs' blocks (the clipped one filled out with zeros past the array's end, where nothing is
  claimed), and for the result the stored value of those.
-/
import proofs.«114764_g67765993996428_cont_9to1_m_62_20_alg».proof.Proof.BodyBits

set_option maxRecDepth 16384

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The block of input rows at point `t`, filled out with zeros past the array's end. -/
def xfill (c : Dev nD) (t : Fin cfg0.N) : S3072x768.Idx → Elt F .f32 :=
  win0_0.fill (grid0.coords t) (fun _ => Scalar.ofBits .f32 0#32) (iblk m c 0 t)

/-- The proof data on core `c`: the arrays as the region finds them; after the body each input's buffer at its
    block and the result's at the stored value of the blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfill m c t
    | ⟨1, _⟩ => iblk m c 1 t
    | ⟨2, _⟩ => iblk m c 2 t
    | ⟨3, _⟩ => iblk m c 3 t
    | ⟨4, _⟩ => k0_pay1 (F := F) (xfill m c t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfill m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = k0_pay1 (F := F) (xfill m c t) (iblk m c 1 t) (iblk m c 2 t) (iblk m c 3 t) := by dsimp only [dats]

/-- The clipped input window is fetched at every point: its buffer holds the block on the rows inside the array
    and `d` elsewhere. -/
theorem before0_0 (c : Dev nD) (t : Fin cfg0.N) (d) :
    (dats m 0 c).before 0 t d = win0_0.fill (grid0.coords t) d (iblk m c 0 t) := by
  rw [(dats m 0 c).before_fetched 0 t (fetch0_0 t) d]; rfl
/-- The three unclipped inputs hold their blocks at every point, fetched there or not. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- The result's buffer is written back at every point, so the body finds it at contents nothing names. -/
theorem before0_4 (c : Dev nD) (t : Fin cfg0.N) (d) : (dats m 0 c).before 4 t d = d := by
  refine (dats m 0 c).before_out_reset 4 rfl t ?_ d
  by_cases h0 : t.val = 0
  · exact .inl h0
  · exact .inr ⟨h0, flush0_4 _⟩

end Cert.Kernel.Run

end
-- ==== Proof.FrameBits.lean ====
/-
  The frame of the word-level program, at any float instance.

  The pipeline has five windows. Window 0, the block of 3072 input rows, and window 4, the block of 3072 result rows,
  do not tile their 65536-row arrays: the last block has 1024 rows inside the array, and past them the staging
  buffer holds words nothing names. What the body stores into the result's buffer is a function of the WHOLE input
  block, those words included, so it cannot be named; the frame does not need it. Here the result's window is
  forgotten: the body is handed its buffer at some contents and hands it back at some contents, and of the result
  array nothing is said. What remains is what the frame asks: the program runs to the end; the position table, an
  input array of the pipeline, is never written; the other three argument arrays bypass the region, and the one
  host line after the region, a reshape of the region's result into a buffer of its own, writes none of them.
-/
import proofs.«114764_g67765993996428_cont_9to1_m_62_20_alg».proof.Proof.DatBits
import Idealize.ShloMosaic.Lib.Pipeline.FrameSuffix

set_option maxRecDepth 16384

noncomputable section

namespace Cert.Kernel.FrameB

open Cert.Kernel Cert.Kernel.Gen Cert.Kernel.Run
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's window is the one forgotten. -/
abbrev fgt : Fin cfg0.W → Bool := fun w => w.val == 4

/-- What the body is handed at point `t`: the invariant, the core's duties, each input's current staging buffer at
    what the fetches left there, and the result's buffer at contents nothing names. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))

/-- What it hands back: the clipped input's buffer stated on the rows inside the array only, the three whole inputs'
    buffers at their blocks, and the result's buffer at contents nothing names. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X))

/-- The body at any point: the four inputs' buffers hold their blocks (the clipped one filled out past the array's
    end with whatever the fetch left), so the body's triple applies; it returns the four as found and the fifth at
    some contents, which is all that is asked of it. The invariant and the core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩, ⟨%X4, H4⟩⟩
  rw [before0_0 m c t d0, before0_1 m c t d1, before0_2 m c t d2, before0_3 m c t d3]
  iapply (Body.sound_kernel (F := F) c Set.univ (grid0.coords t) _ _ _ _ _ _ _ _ _ _
    (win0_0.fill (grid0.coords t) d0 (iblk m c 0 t)) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists d0
    unfold xfill
    rw [Window.cut_fill]
    iexact H0
  isplitl [H1]; · iexact H1
  isplitl [H2]; · iexact H2
  isplitl [H3]; · iexact H3
  iexists _; iexact H4

/-- The library's body obligation, in the form the loop uses, with the result's window forgotten. -/
theorem body_obligation (c : Dev nD) : BodyObligationLoose (dats (F := F) m 0 c) (defs₀ (F := F)) Variants.none () Set.univ fgt := fun t => by
  rw [bigSep_W0, bigSep_W0]
  exact sound_body m c t

/-- The one host line after the region, a reshape of the region's result, writes its own result buffer only. -/
theorem sfx_writes : ∀ ops ∈ ([hostOps1] : List (List (HloOp τ sig (Elt F)))), ∀ op ∈ ops,
    ∀ b : Ref sig .tc, Proc.devRef (τ := τ) .tc b ∈ op.writes → b ∈ ({main_v4} : Finset (Ref sig .tc)) := by
  intro ops hops op hop b hb
  simp only [List.mem_cons, List.mem_nil_iff, or_false] at hops
  subst hops
  simp only [hostOps1, List.mem_cons, List.mem_nil_iff, or_false] at hop
  subst hop
  simp only [StableHlo.reshape_writes, Finset.mem_singleton] at hb
  exact Finset.mem_singleton.mpr (Proc.devRef_injective (τ := τ) _ hb)

set_option backward.isDefEq.respectTransparency.types false in
/-- At the compiled mesh, for any values, from any memory with zero counters: every weakly fair execution of @main
    on the TensorCores terminates, and every final state has every input array of the pipeline at its contents on
    entering the region, nothing stated of the forgotten result window, and every other unscoped buffer that the line
    after the region does not write at its contents on entering the region. -/
theorem run_main : θ_run defs (onTc (τ := τ) (main (F := F))) (s₀ m ρ)
    (Pipeline.RDat.FramePostR cfg0 (fun c => (dats (F := F) m 0 c).toRForget fgt) {main_v4} (V m)) :=
  Pipeline.RDat.θ_run_frame_around_T cfgs (0 : Fin 1) launch0 defs₀ Variants.none
    (fun c => (dats (F := F) m 0 c).toRForget fgt) {main_v4} m ρ main
    (hbody := fun c => (body_obligation m c).toRForget)
    (hshare := fun c => ((dats (F := F) m 0 c).toRForget fgt).share_full fun _ => rfl)
    (howed := fun _ _ => rfl) (V₀ := V0 m) (opss := [hostOps1]) (hsub := sfx_sub) (hfresh := sfx_fresh)
    (hkeep := sfx_keeps) (hT := sfx_writes) (hmain := hmain m Variants.none) (hA := fun c w => A_eq m c w)
    (hΦ := fun _ _ => rfl)

/-- The frame: the program runs to the end and its four argument arrays end as launched. The position table is an
    input array of the pipeline, never written; the other three bypass the region, and the line after it writes none
    of them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Finset.mem_sdiff.mpr ⟨Pipeline.mem_restRefs_of main_arg0 (by decide) (by decide), by decide⟩)).trans (V_main_arg0 m c),
     (h.arr_in c 1 rfl).trans ((A_eq m c 1).trans (V_main_arg1 m c)),
     ((h c).2 main_arg2 (Finset.mem_sdiff.mpr ⟨Pipeline.mem_restRefs_of main_arg2 (by decide) (by decide), by decide⟩)).trans (V_main_arg2 m c),
     ((h c).2 main_arg3 (Finset.mem_sdiff.mpr ⟨Pipeline.mem_restRefs_of main_arg3 (by decide) (by decide), by decide⟩)).trans (V_main_arg3 m c)⟩)
    (run_main m ρ)

end Cert.Kernel.FrameB

end
-- ==== Proof.BodyIdeal.lean ====
/-
  The kernel body as a triple, at any float instance.

  The body reads four whole staging buffers — a 3072 × 768 block of rows, the 1024 × 768 position table, and the
  two 1 × 768 affine rows —, computes one 3072 × 768 block from them, and stores it whole into the fifth. So from
  any contents `x0 x1 x2 x3` of the four and anything in the fifth it ends with the four unchanged and the fifth
  holding that block as a function of `x0 x1 x2 x3` (`outv`), which is the body's one stored value at the four
  contents (`outv_eq`): every access is the buffer's whole rectangle at offset zero.
-/
import proofs.«114764_g67765993996428_cont_9to1_m_62_20_alg».proof.Proof.Gen.KernelIdeal.Frame
import proofs.«114764_g67765993996428_cont_9to1_m_62_20_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole rectangle of a 3072 × 768 buffer, of the table's, and of a 1 × 768 row's. -/
abbrev rX : Rect S3072x768 := Rect.unit (s := S3072x768) ![0, 0] S3072x768.size inb_S3072x768_S3072x768_0_0
abbrev rP : Rect S1024x768 := Rect.unit (s := S1024x768) ![0, 0] S1024x768.size inb_S1024x768_S1024x768_0_0
abbrev rV : Rect S1x768 := Rect.unit (s := S1x768) ![0, 0] S1x768.size inb_S1x768_S1x768_0_0

/-- What the fifth buffer holds after the body: its one store, of the stored value at the four loads. -/
def outv (x0 : Vec F S3072x768 .f32) (x1 : Vec F S1024x768 .f32) (x2 x3 : Vec F S1x768 .f32) : Vec F S3072x768 .f32 :=
  View.canon [⟨rX, k0_pay1 (View.ld x0 rX) (View.ld x1 rP) (View.ld x2 rV) (View.ld x3 rV)⟩]

/-- The store's rectangle is the whole buffer. -/
theorem hz2 : (![0, 0] : Fin 2 → Nat) = fun _ => 0 := funext fun a => by fin_cases a <;> rfl

theorem cover_out (p0 : Vec F S3072x768 .f32) (y : S3072x768.Idx) :
    ∃ pc ∈ ([⟨rX, p0⟩] : List (View.Piece (Elt F) S3072x768 .f32)), y ∈ pc.1.set :=
  ⟨_, List.mem_singleton_self _, View.mem_set_unit_zero hz2 inb_S3072x768_S3072x768_0_0 y⟩

/-- Whole-rectangle loads read the contents and the whole-rectangle store writes the value: the fifth buffer ends
    at the stored value of the four contents. -/
theorem outv_eq (x0 : Vec F S3072x768 .f32) (x1 : Vec F S1024x768 .f32) (x2 x3 : Vec F S1x768 .f32) :
    outv x0 x1 x2 x3 = k0_pay1 x0 x1 x2 x3 := by
  unfold outv
  rw [View.canon_unit_zero hz2]
  simp only [View.ld_unit_zero (S := S3072x768) hz2, View.ld_unit_zero (S := S1024x768) hz2, View.ld_unit_zero (S := S1x768) hz2]

set_option maxHeartbeats 1000000 in
/-- The body on whole staging memrefs: the four inputs' at read contents and the fifth at anything run to the
    continuation holding the four as they were and the fifth at `outv` of them. -/
theorem sound_kernel (c : Dev nD) (E : Set ℕ) (i : grid0.Coords)
    (arg1 : Memref sig .tc .vmem S3072x768 .f32) (harg1 : arg1.IsWhole) (arg2 : Memref sig .tc .vmem S1024x768 .f32) (harg2 : arg2.IsWhole)
    (arg3 : Memref sig .tc .vmem S1x768 .f32) (harg3 : arg3.IsWhole) (arg4 : Memref sig .tc .vmem S1x768 .f32) (harg4 : arg4.IsWhole)
    (arg5 : Memref sig .tc .vmem S3072x768 .f32) (harg5 : arg5.IsWhole)
    (x0 : Vec F S3072x768 .f32) (x1 : Vec F S1024x768 .f32) (x2 x3 : Vec F S1x768 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outv x0 x1 x2 x3)) -∗ K ⟨⟩))
      ⊢ wp frame (wpE (defs₀ (F := F)) Variants.none c none) E (cc0__ln_kernel i arg1 harg1 arg2 harg2 arg3 harg3 arg4 harg4 arg5 harg5) K := by
  simp only [cc0__ln_kernel_eq_skeleton]; unfold cc0__ln_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

end Cert.KernelIdeal.Body

end
-- ==== Proof.IdealDat.lean ====
/-
  The proof data of the kernel's one pipeline, at any float instance.

  At grid point `t` the body is handed the block of 3072 rows of the flattened input that starts at row 3072·t
  — its part inside the 65536-row array; the last block has 1024 such rows, and the staging buffer's other 2048
  rows hold words nothing names —, the whole position table, and the two affine rows. It leaves the four as it
  found them and the fifth buffer at its one stored value of the four. The proof data names, per window, what the
  body leaves: the inputs' blocks (the clipped one filled out with zeros past the array's end, where nothing is
  claimed), and for the result the stored value of those.
-/
import proofs.«114764_g67765993996428_cont_9to1_m_62_20_alg».proof.Proof.BodyIdeal

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The block of input rows at point `t`, filled out with zeros past the array's end. -/
def xfill (c : Dev nD) (t : Fin cfg0.N) : S3072x768.Idx → Elt F .f32 :=
  win0_0.fill (grid0.coords t) (fun _ => Scalar.ofBits .f32 0#32) (iblk m c 0 t)

/-- The proof data on core `c`: the arrays as the region finds them; after the body each input's buffer at its
    block and the result's at the stored value of the blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfill m c t
    | ⟨1, _⟩ => iblk m c 1 t
    | ⟨2, _⟩ => iblk m c 2 t
    | ⟨3, _⟩ => iblk m c 3 t
    | ⟨4, _⟩ => k0_pay1 (F := F) (xfill m c t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfill m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = k0_pay1 (F := F) (xfill m c t) (iblk m c 1 t) (iblk m c 2 t) (iblk m c 3 t) := by dsimp only [dats]

/-- The clipped input window is fetched at every point: its buffer holds the block on the rows inside the array
    and `d` elsewhere. -/
theorem before0_0 (c : Dev nD) (t : Fin cfg0.N) (d) :
    (dats m 0 c).before 0 t d = win0_0.fill (grid0.coords t) d (iblk m c 0 t) := by
  rw [(dats m 0 c).before_fetched 0 t (fetch0_0 t) d]; rfl
/-- The three unclipped inputs hold their blocks at every point, fetched there or not. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- The result's buffer is written back at every point, so the body finds it at contents nothing names. -/
theorem before0_4 (c : Dev nD) (t : Fin cfg0.N) (d) : (dats m 0 c).before 4 t d = d := by
  refine (dats m 0 c).before_out_reset 4 rfl t ?_ d
  by_cases h0 : t.val = 0
  · exact .inl h0
  · exact .inr ⟨h0, flush0_4 _⟩

end Cert.KernelIdeal.Run

end
-- ==== Proof.IdealRun.lean ====
/-
  The idealised kernel's run, with every array named.

  At the ideal instance a lane sum reads one row only, so the body's stored value at a row inside the array depends
  on that row of the input block and on nothing past the array's end (`pay_congr`, from the stored value read at an
  index). Hence what the body leaves in the result's staging buffer agrees, on the rows its write-back moves, with
  the stored value of the block filled out with zeros — whatever the buffer's tail held when the clipped fetch
  landed (`cut_pay`) —, which is what the proof data names. With that the body meets its obligation at every grid
  point, and the library's run around the region gives: every array of the pipeline at what the proof data
  computes, every other buffer at what the host lines after the region make of those.
-/
import proofs.«114764_g67765993996428_cont_9to1_m_62_20_alg».proof.Proof.IdealDat
import proofs.«114764_g67765993996428_cont_9to1_m_62_20_alg».proof.Proof.Spec
import Idealize.ShloMosaic.Lib.Pipeline.FrameSuffix
import Idealize.ShloMosaic.Lib.ValueIdx

set_option maxRecDepth 16384

noncomputable section

namespace Cert.KernelIdeal.RunI

open Cert.KernelIdeal Cert.KernelIdeal.Gen Cert.KernelIdeal.Run Cert.LayerNorm
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The body's stored value read at row `r`, lane `j`: the row `k ↦ X (r, k) + Pm (r mod 1024, k)` normalised by
    the reciprocal root, at `j`, times `Gm (0, j)` plus `Bm (0, j)`. -/
def PayAt : Prop := ∀ (X : Vec Ideal S3072x768 .f32) (Pm : Vec Ideal S1024x768 .f32) (Gm Bm : Vec Ideal S1x768 .f32) (r : Fin 3072) (j : Fin 768),
    k0_pay1 (F := Ideal) X Pm Gm Bm (ix2 r j)
      = rowK (fun k => X (ix2 r k) + Pm (ix2 (⟨r.val % 1024, Nat.mod_lt _ (by decide)⟩ : Fin 1024) k)) (Gm (ix2 (0 : Fin 1) j)) (Bm (ix2 (0 : Fin 1) j)) j

/-- Two blocks with one row `r` have one stored value on that row. -/
theorem pay_congr (hpay : PayAt) (X X' : Vec Ideal S3072x768 .f32) (Pm : Vec Ideal S1024x768 .f32) (Gm Bm : Vec Ideal S1x768 .f32)
    (r : Fin 3072) (j : Fin 768) (h : ∀ k : Fin 768, X (ix2 r k) = X' (ix2 r k)) :
    k0_pay1 (F := Ideal) X Pm Gm Bm (ix2 r j) = k0_pay1 (F := Ideal) X' Pm Gm Bm (ix2 r j) := by
  rw [hpay, hpay]
  exact congrArg (fun f => rowK f (Gm (ix2 (0 : Fin 1) j)) (Bm (ix2 (0 : Fin 1) j)) j) (funext fun k => by rw [h k])

/-- Every transfer of the two clipped windows moves whole rows, and the two are cut alike. -/
theorem xs_facts : ∀ t : Fin cfg0.N, win0_0.xsize (grid0.coords t) 1 = 768 ∧ win0_4.xsize (grid0.coords t) 1 = 768
    ∧ win0_4.xsize (grid0.coords t) 0 = win0_0.xsize (grid0.coords t) 0 :=
  (by decide +kernel : ∀ t : Fin grid0.N, win0_0.xsize (grid0.coords t) 1 = 768 ∧ win0_4.xsize (grid0.coords t) 1 = 768
    ∧ win0_4.xsize (grid0.coords t) 0 = win0_0.xsize (grid0.coords t) 0)

/-- On a row the fetch moves, the filled block is the fetched block whatever filled it out. -/
theorem fill_inside (t : Fin cfg0.N) (d d' : S3072x768.Idx → Elt Ideal .f32) (g : (win0_0.xblock (grid0.coords t)).Idx → Elt Ideal .f32)
    (r : Fin 3072) (hr : r.val < win0_0.xsize (grid0.coords t) 0) (k : Fin 768) :
    win0_0.fill (grid0.coords t) d g (ix2 r k) = win0_0.fill (grid0.coords t) d' g (ix2 r k) := by
  have hm : win0_0.moved (grid0.coords t) (ix2 r k) = true := (win0_0.moved_iff _ _).mpr fun a => by
    match a with
    | ⟨0, _⟩ => exact hr
    | ⟨1, _⟩ => show k.val < win0_0.xsize (grid0.coords t) 1; rw [(xs_facts t).1]; exact k.isLt
  unfold Window.fill; rw [dif_pos hm, dif_pos hm]

/-- What the body leaves in the result's buffer, on the rows its write-back moves, is the stored value of the
    zero-filled block there. -/
theorem cut_pay (hpay : PayAt) (c : Dev nD) (t : Fin cfg0.N) (d0 : S3072x768.Idx → Elt Ideal .f32) :
    win0_4.cut (grid0.coords t) (k0_pay1 (F := Ideal) (win0_0.fill (grid0.coords t) d0 (iblk m c 0 t)) (iblk m c 1 t) (iblk m c 2 t) (iblk m c 3 t))
      = win0_4.cut (grid0.coords t) (k0_pay1 (F := Ideal) (xfill m c t) (iblk m c 1 t) (iblk m c 2 t) (iblk m c 3 t)) := by
  funext j
  have h0 : (j 0).val < win0_0.xsize (grid0.coords t) 0 := by rw [← (xs_facts t).2.2]; exact (j 0).isLt
  have h0' : (j 0).val < 3072 := Nat.lt_of_lt_of_le h0 (win0_0.xsize_le _ 0)
  have h1 : (j 1).val < 768 := by
    have := (j 1).isLt; change (j 1).val < win0_4.xsize (grid0.coords t) 1 at this; rw [(xs_facts t).2.1] at this; exact this
  have hj : win0_4.xinj (grid0.coords t) j = ix2 (⟨(j 0).val, h0'⟩ : Fin 3072) (⟨(j 1).val, h1⟩ : Fin 768) :=
    funext fun a => match a with | ⟨0, _⟩ => rfl | ⟨1, _⟩ => rfl
  show k0_pay1 (F := Ideal) _ _ _ _ (win0_4.xinj (grid0.coords t) j) = k0_pay1 (F := Ideal) _ _ _ _ (win0_4.xinj (grid0.coords t) j)
  rw [hj]
  exact pay_congr hpay _ _ _ _ _ _ _ fun k => fill_inside t _ _ _ _ h0 k

/-- What the body is called with at point `t`, the windows one by one, -/
def bodyPre (c : Dev nD) (t : Fin cfg0.N) : sProp 𝕄 :=
  iprop((dats (F := Ideal) m 0 c).Φ t.castSucc ∗ (dats (F := Ideal) m 0 c).owesAt () t.castSucc
    ∗ (∃ d, owns (c : Thread nD τ) (st0_0 t) fullShare ((dats (F := Ideal) m 0 c).before 0 t d))
    ∗ (∃ d, owns (c : Thread nD τ) (st0_1 t) fullShare ((dats (F := Ideal) m 0 c).before 1 t d))
    ∗ (∃ d, owns (c : Thread nD τ) (st0_2 t) fullShare ((dats (F := Ideal) m 0 c).before 2 t d))
    ∗ (∃ d, owns (c : Thread nD τ) (st0_3 t) fullShare ((dats (F := Ideal) m 0 c).before 3 t d))
    ∗ (∃ d, owns (c : Thread nD τ) (st0_4 t) fullShare ((dats (F := Ideal) m 0 c).before 4 t d)))

/-- and what it returns: the unclipped inputs' buffers as named, the two clipped windows' on the rows their
    transfers move. -/
def bodyPost (c : Dev nD) (t : Fin cfg0.N) : sProp 𝕄 :=
  iprop((dats (F := Ideal) m 0 c).Φ t.succ ∗ (dats (F := Ideal) m 0 c).owesAt () t.succ
    ∗ (∃ d, owns (c : Thread nD τ) (st0_0 t) fullShare
        (win0_0.fill (grid0.coords t) d (win0_0.cut (grid0.coords t) ((dats (F := Ideal) m 0 c).after 0 t))))
    ∗ owns (c : Thread nD τ) (st0_1 t) fullShare ((dats (F := Ideal) m 0 c).after 1 t)
    ∗ owns (c : Thread nD τ) (st0_2 t) fullShare ((dats (F := Ideal) m 0 c).after 2 t)
    ∗ owns (c : Thread nD τ) (st0_3 t) fullShare ((dats (F := Ideal) m 0 c).after 3 t)
    ∗ (∃ d, owns (c : Thread nD τ) (st0_4 t) fullShare
        (win0_4.fill (grid0.coords t) d (win0_4.cut (grid0.coords t) ((dats (F := Ideal) m 0 c).after 4 t)))))

/-- The body at every grid point: the inputs' buffers hold their blocks — the clipped one filled out with whatever
    the fetch left —, so the body's triple applies; the unclipped inputs come back as found, the clipped input and
    the result on the rows their transfers move. -/
theorem sound_body (hpay : PayAt) (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before0_0 m c t d0, before0_1 m c t d1, before0_2 m c t d2, before0_3 m c t d3, before0_4 m c t d4]
  iapply (Body.sound_kernel (F := Ideal) c Set.univ (grid0.coords t) _ _ _ _ _ _ _ _ _ _
    (win0_0.fill (grid0.coords t) d0 (iblk m c 0 t)) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists d0
    rw [after0_0]; unfold xfill; rw [Window.cut_fill]; iexact H0
  isplitl [H1]; · rw [after0_1]; iexact H1
  isplitl [H2]; · rw [after0_2]; iexact H2
  isplitl [H3]; · rw [after0_3]; iexact H3
  · iexists _
    rw [after0_4, Body.outv_eq, ← cut_pay m hpay c t d0, Window.fill_cut]; iexact H4

/-- The library's body obligation, at every point. -/
theorem body_obligation (hpay : PayAt) (c : Dev nD) :
    BodyObligationLoose (dats (F := Ideal) m 0 c) (defs₀ (F := Ideal)) Variants.none () Set.univ := fun t => by
  rw [bigSep_W0, bigSep_W0]
  exact sound_body m hpay c t

set_option backward.isDefEq.respectTransparency.types false in
/-- Every weakly fair execution of @main terminates; every array of the pipeline ends at what the proof data
    computes, every other unscoped buffer at what the host line after the region makes of the region's exit. -/
theorem run_main (hpay : PayAt) : θ_run defs (onTc (τ := τ) (main (F := Ideal))) (s₀ m ρ)
    (Pipeline.FramePost cfgs (dats (F := Ideal) m) 0 (Pipeline.afterTail₀ cfgs (dats (F := Ideal) m) 0 (V0 m) [hostOps1])) :=
  Pipeline.θ_run_frame_around cfgs (dats (F := Ideal) m) (0 : Fin 1) launch0 defs₀ Variants.none m ρ main
    (hbody := fun c => body_obligation m hpay c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := fun c w => A_eq m c w) (hΦ := fun _ _ => rfl)

end Cert.KernelIdeal.RunI

end
-- ==== Proof.IdealValue.lean ====
/-
  The idealised kernel's result array is the specification's array by the reciprocal root.

  The program flattens the [64, 1024, 768] input to 65536 rows of 768 lanes, views the scale and the shift vectors
  as 1 × 768 rows, and runs a grid of 22 points over blocks of 3072 rows: point t is handed rows 3072·t onwards of
  the flattened input — 3072 of them, except at the last point, whose block holds the array's last 1024 rows —,
  the whole 1024 × 768 position table and the two rows, and writes back the rows of its result block that lie
  inside the array. Given what the body stores at a row r and lane j of a block (`PayAt`: the row of the input
  block plus row r mod 1024 of the position table, normalised by the reciprocal root, scaled and shifted), row R
  of the result array is the row k ↦ x2 (R, k) + pos (R mod 1024, k) so normalised (`out2`): a block starts at
  a multiple of 3072 = 3 · 1024, so (3072·t + r) mod 1024 = r mod 1024; each point writes its block of that one
  array (`flushed_eq`), and the 22 blocks cover the 65536 rows, row R lying in block R / 3072 (`cover`,
  `final4`). Flattening sends (b, n) to row 1024·b + n, whose remainder modulo 1024 is n, so read back at
  [64, 1024, 768] the result is the specification's array `GK` of the four arguments (`result_eq`).
-/
import proofs.«114764_g67765993996428_cont_9to1_m_62_20_alg».proof.Proof.IdealDat
import proofs.«114764_g67765993996428_cont_9to1_m_62_20_alg».proof.Proof.Spec
import Idealize.ShloMosaic.Lib.Pipeline.Value
import Idealize.ShloMosaic.Lib.Pipeline.FrameSuffix
import Idealize.ShloMosaic.Lib.ValueIdx
import Idealize.ShloMosaic.Lib.ValueLayout
import Idealize.ShloMosaic.Lib.StableHlo.Run

set_option maxRecDepth 16384

noncomputable section

namespace Cert.KernelIdeal.RunValue

open Cert.KernelIdeal Cert.KernelIdeal.Gen Cert.KernelIdeal.Run Cert.LayerNorm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The body's stored value read at row r, lane j: the row of the first block plus row r mod 1024 of the table, normalised by
    the reciprocal root at j, times the scale row's lane j plus the shift row's lane j. -/
def PayAt : Prop := ∀ (X : Vec Ideal S3072x768 .f32) (Pm : Vec Ideal S1024x768 .f32) (Gm Bm : Vec Ideal S1x768 .f32) (r : Fin 3072) (j : Fin 768),
    k0_pay1 (F := Ideal) X Pm Gm Bm (ix2 r j)
      = rowK (fun k => X (ix2 r k) + Pm (ix2 (⟨r.val % 1024, Nat.mod_lt _ (by decide)⟩ : Fin 1024) k)) (Gm (ix2 (0 : Fin 1) j)) (Bm (ix2 (0 : Fin 1) j)) j

/-- The four arrays as the region finds them, each at its literal type. -/
abbrev xarr (c : Dev nD) : S65536x768.Idx → EReal := V m c main_v0
abbrev parr (c : Dev nD) : S1024x768.Idx → EReal := V m c main_arg1
abbrev garr (c : Dev nD) : S1x768.Idx → EReal := V m c main_v1
abbrev barr (c : Dev nD) : S1x768.Idx → EReal := V m c main_v2

/-- The flattened result array after the run: row R, lane j is the row k ↦ x2 (R, k) + pos (R mod 1024, k) normalised by the
    reciprocal root at j, times γ (0, j) plus β (0, j), over the arrays as the region finds them. -/
def out2 (c : Dev nD) : S65536x768.Idx → EReal := fun i =>
  rowK (fun k => xarr m c (ix2 (i 0) k) + parr m c (ix2 (⟨(i 0).val % 1024, Nat.mod_lt _ (by decide)⟩ : Fin 1024) k)) (garr m c (ix2 (0 : Fin 1) (i 1))) (barr m c (ix2 (0 : Fin 1) (i 1))) (i 1)

/-- The index maps over the 22 points: the row-block windows sit at block (t, 0) and move min 3072 (65536 − 3072·t) rows of
    768 lanes; the table's and the two rows' windows sit at block (0, 0). -/
theorem idx_facts : ∀ t : Fin cfg0.N,
    win0_4.index t 0 = t.val ∧ win0_4.index t 1 = 0
    ∧ win0_4.xsize (grid0.coords t) 0 = min 3072 (65536 - 3072 * t.val) ∧ win0_4.xsize (grid0.coords t) 1 = 768
    ∧ win0_0.index t 0 = t.val ∧ win0_0.index t 1 = 0
    ∧ win0_0.xsize (grid0.coords t) 0 = min 3072 (65536 - 3072 * t.val) ∧ win0_0.xsize (grid0.coords t) 1 = 768
    ∧ win0_1.index t 0 = 0 ∧ win0_1.index t 1 = 0
    ∧ win0_2.index t 0 = 0 ∧ win0_2.index t 1 = 0
    ∧ win0_3.index t 0 = 0 ∧ win0_3.index t 1 = 0 :=
  (by decide +kernel : ∀ t : Fin grid0.N, _)

/-- Row r of the input block at point t, when it lies inside the array, is row 3072·t + r of the flattened input. -/
theorem xfill_apply (c : Dev nD) (t : Fin cfg0.N) (r : Fin 3072) (k : Fin 768) (R : Fin 65536)
    (hR : R.val = 3072 * t.val + r.val) :
    (xfill m c t : Vec Ideal S3072x768 .f32) (ix2 r k) = xarr m c (ix2 R k) := by
  obtain ⟨-, -, -, -, e0, e1, e2, e3, -⟩ := idx_facts t
  have hR' : R.val < 65536 := R.isLt
  have hmv : win0_0.moved (grid0.coords t) (ix2 r k) = true := (win0_0.moved_iff _ _).mpr (fun a => by
    match a with
    | ⟨0, _⟩ => show r.val < win0_0.xsize (grid0.coords t) 0; rw [e2]; omega
    | ⟨1, _⟩ => show k.val < win0_0.xsize (grid0.coords t) 1; rw [e3]; exact k.isLt)
  unfold xfill Pipeline.Window.fill
  rw [dif_pos hmv]
  unfold iblk
  rw [View.read_apply]
  show V m c main_v0 _ = V m c main_v0 _
  congr 1
  funext a; apply Fin.ext
  match a with
  | ⟨0, _⟩ => show win0_0.index t 0 * 3072 + 1 * r.val = R.val; rw [e0, hR]; omega
  | ⟨1, _⟩ => show win0_0.index t 1 * 768 + 1 * k.val = k.val; rw [e1]; omega

/-- The position table's block at every point is the table. -/
theorem pblk_apply (c : Dev nD) (t : Fin cfg0.N) (p : Fin 1024) (k : Fin 768) :
    (iblk m c 1 t : Vec Ideal S1024x768 .f32) (ix2 p k) = parr m c (ix2 p k) := by
  obtain ⟨-, -, -, -, -, -, -, -, f0, f1, -⟩ := idx_facts t
  unfold iblk
  rw [View.read_apply]
  show V m c main_arg1 _ = V m c main_arg1 _
  congr 1
  funext a; apply Fin.ext
  match a with
  | ⟨0, _⟩ => show win0_1.index t 0 * 1024 + 1 * p.val = p.val; rw [f0]; omega
  | ⟨1, _⟩ => show win0_1.index t 1 * 768 + 1 * k.val = k.val; rw [f1]; omega

/-- The scale row's block at every point is the scale row. -/
theorem gblk_apply (c : Dev nD) (t : Fin cfg0.N) (u : Fin 1) (k : Fin 768) :
    (iblk m c 2 t : Vec Ideal S1x768 .f32) (ix2 u k) = garr m c (ix2 u k) := by
  obtain ⟨-, -, -, -, -, -, -, -, -, -, f0, f1, -⟩ := idx_facts t
  unfold iblk
  rw [View.read_apply]
  show V m c main_v1 _ = V m c main_v1 _
  congr 1
  funext a; apply Fin.ext
  match a with
  | ⟨0, _⟩ => show win0_2.index t 0 * 1 + 1 * u.val = u.val; rw [f0]; omega
  | ⟨1, _⟩ => show win0_2.index t 1 * 768 + 1 * k.val = k.val; rw [f1]; omega

/-- The shift row's block at every point is the shift row. -/
theorem bblk_apply (c : Dev nD) (t : Fin cfg0.N) (u : Fin 1) (k : Fin 768) :
    (iblk m c 3 t : Vec Ideal S1x768 .f32) (ix2 u k) = barr m c (ix2 u k) := by
  obtain ⟨-, -, -, -, -, -, -, -, -, -, -, -, f0, f1⟩ := idx_facts t
  unfold iblk
  rw [View.read_apply]
  show V m c main_v2 _ = V m c main_v2 _
  congr 1
  funext a; apply Fin.ext
  match a with
  | ⟨0, _⟩ => show win0_3.index t 0 * 1 + 1 * u.val = u.val; rw [f0]; omega
  | ⟨1, _⟩ => show win0_3.index t 1 * 768 + 1 * k.val = k.val; rw [f1]; omega

/-- The stored value at (r, q) of point t's block is the result array's entry at row 3072·t + r, lane q. -/
theorem pay_eq_out2 (hpay : PayAt) (c : Dev nD) (t : Fin cfg0.N) (r : Fin 3072) (q : Fin 768) (i : S65536x768.Idx)
    (hi0 : (i 0).val = 3072 * t.val + r.val) (hi1 : (i 1).val = q.val) :
    k0_pay1 (F := Ideal) (xfill m c t) (iblk m c 1 t) (iblk m c 2 t) (iblk m c 3 t) (ix2 r q) = out2 m c i := by
  obtain ⟨R, q', rfl⟩ : ∃ (R : Fin 65536) (q' : Fin 768), i = ix2 R q' := ⟨i 0, i 1, eq_ix2 i⟩
  have hR : R.val = 3072 * t.val + r.val := hi0
  obtain rfl : q' = q := Fin.ext hi1
  refine (hpay (xfill m c t) (iblk m c 1 t) (iblk m c 2 t) (iblk m c 3 t) r q').trans ?_
  unfold out2
  show rowK _ _ _ q' = rowK (fun k => xarr m c (ix2 R k) + parr m c (ix2 (⟨R.val % 1024, Nat.mod_lt _ (by decide)⟩ : Fin 1024) k))
    (garr m c (ix2 (0 : Fin 1) q')) (barr m c (ix2 (0 : Fin 1) q')) q'
  have hmod : (⟨r.val % 1024, Nat.mod_lt _ (by decide)⟩ : Fin 1024) = ⟨R.val % 1024, Nat.mod_lt _ (by decide)⟩ :=
    Fin.ext (by show r.val % 1024 = R.val % 1024; omega)
  have hrow : (fun k => (xfill m c t : Vec Ideal S3072x768 .f32) (ix2 r k)
        + (iblk m c 1 t : Vec Ideal S1024x768 .f32) (ix2 (⟨r.val % 1024, Nat.mod_lt _ (by decide)⟩ : Fin 1024) k))
      = fun k => xarr m c (ix2 R k) + parr m c (ix2 (⟨R.val % 1024, Nat.mod_lt _ (by decide)⟩ : Fin 1024) k) :=
    funext fun k => by rw [xfill_apply m c t r k R hR, pblk_apply m c t _ k, hmod]
  exact (congrArg (fun h => rowK h _ _ q') hrow).trans
    ((congrArg (fun g => rowK _ g _ q') (gblk_apply m c t 0 q')).trans (congrArg (fun b => rowK _ _ b q') (bblk_apply m c t 0 q')))

/-- What point t writes back is its block of the result array. -/
theorem flushed_eq (hpay : PayAt) (c : Dev nD) (t : Fin cfg0.N) :
    (dats (F := Ideal) m 0 c).flushed 4 t = ((cfg0.win 4).blk t).view.read (Elt Ideal) (out2 m c) := by
  show (cfg0.win 4).cut (grid0.coords t) ((dats (F := Ideal) m 0 c).after 4 t) = _
  rw [after0_4]
  obtain ⟨e0, e1, e2, e3, -⟩ := idx_facts t
  funext j
  have hj0 : (j 0).val < 3072 := lt_of_lt_of_le (j 0).isLt (win0_4.xsize_le (grid0.coords t) 0)
  have hj1 : (j 1).val < 768 := lt_of_lt_of_le (j 1).isLt (win0_4.xsize_le (grid0.coords t) 1)
  have hx : win0_4.xinj (grid0.coords t) j = ix2 (⟨(j 0).val, hj0⟩ : Fin 3072) (⟨(j 1).val, hj1⟩ : Fin 768) :=
    funext fun a => Fin.ext (by match a with | ⟨0, _⟩ => rfl | ⟨1, _⟩ => rfl)
  show k0_pay1 (F := Ideal) (xfill m c t) (iblk m c 1 t) (iblk m c 2 t) (iblk m c 3 t) (win0_4.xinj (grid0.coords t) j)
    = out2 m c (((cfg0.win 4).blk t).view.emb j)
  refine (congrArg (k0_pay1 (F := Ideal) (xfill m c t) (iblk m c 1 t) (iblk m c 2 t) (iblk m c 3 t)) hx).trans ?_
  exact pay_eq_out2 m hpay c t _ _ _
    (by show win0_4.index t 0 * 3072 + 1 * (j 0).val = 3072 * t.val + (j 0).val; rw [e0]; omega)
    (by show win0_4.index t 1 * 768 + 1 * (j 1).val = (j 1).val; rw [e1]; omega)

/-- An index of the result array is in point t's block iff its row is among the block's rows inside the array. -/
theorem mem_blk (t : Fin cfg0.N) (i : S65536x768.Idx) :
    i ∈ ((cfg0.win 4).blk t).view.set ↔ 3072 * t.val ≤ (i 0).val ∧ (i 0).val < 3072 * t.val + min 3072 (65536 - 3072 * t.val) := by
  show i ∈ ((View.whole main_v3).slice (win0_4.rect t)).set ↔ _
  rw [View.set_slice_whole, Rect.mem_set_unit]
  obtain ⟨e0, e1, e2, e3, -⟩ := idx_facts t
  have h1 : (i 1).val < 768 := (i 1).isLt
  refine ⟨fun h => ?_, fun h a => ?_⟩
  · have h0 : win0_4.index t 0 * 3072 ≤ (i 0).val ∧ (i 0).val < win0_4.index t 0 * 3072 + win0_4.xsize (grid0.coords t) 0 := h 0
    rw [e0, e2] at h0; omega
  · match a with
    | ⟨0, _⟩ =>
      show win0_4.index t 0 * 3072 ≤ (i 0).val ∧ (i 0).val < win0_4.index t 0 * 3072 + win0_4.xsize (grid0.coords t) 0
      rw [e0, e2]; omega
    | ⟨1, _⟩ =>
      show win0_4.index t 1 * 768 ≤ (i 1).val ∧ (i 1).val < win0_4.index t 1 * 768 + win0_4.xsize (grid0.coords t) 1
      rw [e1, e3]; omega

/-- Every row of the result array is in the block of the point its row number divided by 3072 names. -/
theorem cover (i : S65536x768.Idx) : ∃ t : Fin cfg0.N, (cfg0.win 4).flush t = true ∧ i ∈ ((cfg0.win 4).blk t).view.set := by
  have h0 : (i 0).val < 65536 := (i 0).isLt
  refine ⟨⟨(i 0).val / 3072, by rw [show cfg0.N = 22 from N_0]; omega⟩, flush0_4 _, ?_⟩
  rw [mem_blk]
  show 3072 * ((i 0).val / 3072) ≤ (i 0).val ∧ (i 0).val < 3072 * ((i 0).val / 3072) + min 3072 (65536 - 3072 * ((i 0).val / 3072))
  omega

/-- The result's flattened array after the last point is `out2`. -/
theorem final4 (hpay : PayAt) (c : Dev nD) : (dats (F := Ideal) m 0 c).arrAt 4 cfg0.N = out2 m c :=
  (dats (F := Ideal) m 0 c).arrAt_eq_of_cover 4 (out2 m c) (fun t _ => flushed_eq m hpay c t) cover

/-! ## The host side: the arrays the region finds are reshapes of the arguments, and the result is a reshape of its array -/

/-- The flattened input is the input read in row-major order at [65536, 768]. -/
theorem xarr_eq (c : Dev nD) : xarr m c
    = shapeCast S65536x768 (m ((c.tc : Thread nD τ).loc main_arg0) : S64x1024x768.Idx → EReal) shapeCasts_S64x1024x768_S65536x768 := by
  show StableHlo.after hostOps0 (fun b => m (c, b)) (Proc.devRef .tc main_v0) = _
  after_results
  rfl

/-- The scale row is the scale vector at [1, 768]. -/
theorem garr_eq (c : Dev nD) : garr m c
    = shapeCast S1x768 (m ((c.tc : Thread nD τ).loc main_arg2) : S768.Idx → EReal) shapeCasts_S768_S1x768 := by
  show StableHlo.after hostOps0 (fun b => m (c, b)) (Proc.devRef .tc main_v1) = _
  after_results
  rfl

/-- The shift row is the shift vector at [1, 768]. -/
theorem barr_eq (c : Dev nD) : barr m c
    = shapeCast S1x768 (m ((c.tc : Thread nD τ).loc main_arg3) : S768.Idx → EReal) shapeCasts_S768_S1x768 := by
  show StableHlo.after hostOps0 (fun b => m (c, b)) (Proc.devRef .tc main_v2) = _
  after_results
  rfl

/-- The position table is as launched. -/
theorem parr_eq (c : Dev nD) : parr m c = (m ((c.tc : Thread nD τ).loc main_arg1) : S1024x768.Idx → EReal) := V_main_arg1 m c

/-- Row 1024·b + n of the flattened input is row (b, n) of the input. -/
theorem xarr_apply (c : Dev nD) (b : Fin 64) (n : Fin 1024) (k : Fin 768) (R : Fin 65536) (hR : R.val = 1024 * b.val + n.val) :
    xarr m c (ix2 R k) = (m ((c.tc : Thread nD τ).loc main_arg0) : S64x1024x768.Idx → EReal) (ix3 b n k) := by
  rw [xarr_eq]
  refine shapeCast_apply _ _ _ _ ?_
  show (S64x1024x768.rowMajor (ix3 b n k)).val = (S65536x768.rowMajor (ix2 R k)).val
  rw [Shape.rowMajor_val_three, Shape.rowMajor_val_two]
  show (b.val * 1024 + n.val) * 768 + k.val = R.val * 768 + k.val
  rw [hR]; omega

/-- The scale row at lane j is the scale vector at j. -/
theorem garr_apply (c : Dev nD) (j : Fin 768) :
    garr m c (ix2 (0 : Fin 1) j) = (m ((c.tc : Thread nD τ).loc main_arg2) : S768.Idx → EReal) (ix1 j) := by
  rw [garr_eq]
  exact shapeCast_a_1a_apply _ _ 0 j

/-- The shift row at lane j is the shift vector at j. -/
theorem barr_apply (c : Dev nD) (j : Fin 768) :
    barr m c (ix2 (0 : Fin 1) j) = (m ((c.tc : Thread nD τ).loc main_arg3) : S768.Idx → EReal) (ix1 j) := by
  rw [barr_eq]
  exact shapeCast_a_1a_apply _ _ 0 j

/-- The result array at row 1024·b + n, lane j, is the spec array at (b, n, j). -/
theorem out2_apply (c : Dev nD) (b : Fin 64) (n : Fin 1024) (j : Fin 768) (R : Fin 65536) (hR : R.val = 1024 * b.val + n.val) :
    out2 m c (ix2 R j)
      = GK (m ((c.tc : Thread nD τ).loc main_arg0)) (m ((c.tc : Thread nD τ).loc main_arg1)) (m ((c.tc : Thread nD τ).loc main_arg2))
          (m ((c.tc : Thread nD τ).loc main_arg3)) (ix3 b n j) := by
  unfold out2 GK
  show rowK (fun k => xarr m c (ix2 R k) + parr m c (ix2 (⟨R.val % 1024, Nat.mod_lt _ (by decide)⟩ : Fin 1024) k))
      (garr m c (ix2 (0 : Fin 1) j)) (barr m c (ix2 (0 : Fin 1) j)) j
    = rowK (hrow (m ((c.tc : Thread nD τ).loc main_arg0)) (m ((c.tc : Thread nD τ).loc main_arg1)) b n)
      ((m ((c.tc : Thread nD τ).loc main_arg2) : S768.Idx → EReal) (ix1 j)) ((m ((c.tc : Thread nD τ).loc main_arg3) : S768.Idx → EReal) (ix1 j)) j
  have hmod : (⟨R.val % 1024, Nat.mod_lt _ (by decide)⟩ : Fin 1024) = n := Fin.ext (by show R.val % 1024 = n.val; have := n.isLt; omega)
  have hrw : (fun k => xarr m c (ix2 R k) + parr m c (ix2 (⟨R.val % 1024, Nat.mod_lt _ (by decide)⟩ : Fin 1024) k))
      = hrow (m ((c.tc : Thread nD τ).loc main_arg0)) (m ((c.tc : Thread nD τ).loc main_arg1)) b n :=
    funext fun k => by
      unfold hrow
      rw [xarr_apply m c b n k R hR, hmod, parr_eq]
  rw [hrw, garr_apply, barr_apply]

/-- The program's result, the flattened result array read back at [64, 1024, 768], is the specification's array by the
    reciprocal root of the four arguments. -/
theorem result_eq (hpay : PayAt) (c : Dev nD) :
    Pipeline.afterTail₀ cfgs (dats (F := Ideal) m) 0 (V0 m) [hostOps1] c main_v4
      = GK (m ((c.tc : Thread nD τ).loc main_arg0)) (m ((c.tc : Thread nD τ).loc main_arg1)) (m ((c.tc : Thread nD τ).loc main_arg2)) (m ((c.tc : Thread nD τ).loc main_arg3)) := by
  unfold Pipeline.afterTail₀
  show StableHlo.after hostOps1 _ (Proc.devRef .tc main_v4) = _
  after_results
  rw [(Pipeline.withArrays_arr spec0 launch0.win.arr_inj c _ _ 4).trans (final4 m hpay c)]
  funext i
  obtain ⟨b, n, j, rfl⟩ : ∃ (b : Fin 64) (n : Fin 1024) (j : Fin 768), i = ix3 b n j := ⟨i 0, i 1, i 2, eq_ix3 i⟩
  have hlt : 1024 * b.val + n.val < 65536 := by have := b.isLt; have := n.isLt; omega
  refine (shapeCast_apply (out2 m c) shapeCasts_S65536x768_S64x1024x768 (ix3 b n j) (ix2 (⟨1024 * b.val + n.val, hlt⟩ : Fin 65536) j) ?_).trans ?_
  · rw [Shape.rowMajor_val_three, Shape.rowMajor_val_two]
    show (1024 * b.val + n.val) * 768 + j.val = (b.val * 1024 + n.val) * 768 + j.val
    omega
  · exact out2_apply m c b n j _ rfl

end Cert.KernelIdeal.RunValue

end
-- ==== Proof.RefTerm.lean ====
/-
  The reference's result as ONE function of its four argument arrays, stage by stage.

  Positions: the table `pos` holds n at (b, n). The lookup wraps a negative position by the table's length (`wrapped`),
  gives it a unit axis (`starts`), tests it against the table's range 0 … 1023 (`inRange`), and reads the rows of `p` at
  the start indices, with a fill value where the test fails (`taken`). The normalisation adds the rows to `x`
  (`summed`), takes each row's mean (`meanCol`), centres (`centred`), takes the mean square of the centred row
  (`varCol`), the square root of that plus the offset (`sdCol`), divides, scales by `γ` and shifts by `β` (`refTerm`).
  Stated for any float values.
-/
import proofs.«114764_g67765993996428_cont_9to1_m_62_20_alg».proof.ReferenceIdeal
import proofs.«114764_g67765993996428_cont_9to1_m_62_20_alg».proof.Proof.Gen.ReferenceIdeal

noncomputable section

namespace Cert.ReferenceIdeal.RefRun

open Idealize.ShloMosaic Cert.ReferenceIdeal
open Cert.ReferenceIdeal.Facts₀

variable {F : FTy → Type} [FloatOps F] [Facts]

/-- The position table: entry (b, n) holds n. -/
def pos : IVec S64x1024 32 :=
  broadcastInDim S64x1024 ![0, 1] bcast_S1x1024_S64x1024_0_1 (broadcastInDim S1x1024 ![1] bcast_S1024_S1x1024_1 (iotaInDim S1024 32 0))

/-- The positions with negative ones moved up by the table's length (none is negative). -/
def wrapped : IVec S64x1024 32 :=
  select (cmpi .slt pos (broadcastInDim S64x1024 ![] bcast_S_S64x1024 (constantI S_ 32 0#32)))
    (addi pos (broadcastInDim S64x1024 ![] bcast_S_S64x1024 (constantI S_ 32 1024#32))) pos

/-- The start indices of the lookup: the wrapped positions with a unit axis. -/
def starts : IVec S64x1024x1 32 := broadcastInDim S64x1024x1 ![0, 1] bcast_S64x1024_S64x1024x1_0_1 wrapped

/-- Whether a start index lies in the table: 0 ≤ · ≤ 1023, combined over the unit axis. -/
def inRange : IVec S64x1024 1 :=
  Host.reduce IntOp.andi
    (andi (cmpi .sge starts (broadcastInDim S64x1024x1 ![] bcast_S_S64x1024x1 (constantI S_ 32 0#32)))
      (cmpi .sle starts (broadcastInDim S64x1024x1 ![0, 1, 2] bcast_S1x1x1_S64x1024x1_0_1_2
        (broadcastInDim S1x1x1 ![2] bcast_S1_S1x1x1_2 (constantI S1 32 1023#32)))))
    (constantI S_ 1 1#1) reducesTo_S64x1024x1_S64x1024_d2 h_S_

/-- The rows of `p` looked up at the start indices, a fill value where an index is out of range. -/
def taken (p : FVec F S1024x768 .f32) : FVec F S64x1024x768 .f32 :=
  select (broadcastInDim S64x1024x768 ![0, 1] bcast_S64x1024_S64x1024x768_0_1 inRange)
    (Host.gather gather_S1024x768_S64x1024x1_S64x1024x768_2_0_n_n_0_2_1768 p starts)
    (broadcastInDim S64x1024x768 ![] bcast_S_S64x1024x768 (constant S_ .f32 0x7FC00000#32))

/-- `x` plus the looked-up rows. -/
def summed (x : FVec F S64x1024x768 .f32) (p : FVec F S1024x768 .f32) : FVec F S64x1024x768 .f32 := addf x (taken p)

/-- Each row's mean, kept with a unit axis. -/
def meanCol (x : FVec F S64x1024x768 .f32) (p : FVec F S1024x768 .f32) : FVec F S64x1024x1 .f32 :=
  Host.divf
    (broadcastInDim S64x1024x1 ![0, 1] bcast_S64x1024_S64x1024x1_0_1
      (Host.reduceAdd (summed x p) (constant S_ .f32 0x00000000#32) reducesTo_S64x1024x768_S64x1024_d2 h_S_))
    (broadcastInDim S64x1024x1 ![] bcast_S_S64x1024x1 (constant S_ .f32 0x44400000#32))

/-- Each entry less its row's mean. -/
def centred (x : FVec F S64x1024x768 .f32) (p : FVec F S1024x768 .f32) : FVec F S64x1024x768 .f32 :=
  subf (summed x p) (broadcastInDim S64x1024x768 ![0, 1, 2] bcast_S64x1024x1_S64x1024x768_0_1_2 (meanCol x p))

/-- Each row's mean squared centred entry, kept with a unit axis. -/
def varCol (x : FVec F S64x1024x768 .f32) (p : FVec F S1024x768 .f32) : FVec F S64x1024x1 .f32 :=
  Host.divf
    (broadcastInDim S64x1024x1 ![0, 1] bcast_S64x1024_S64x1024x1_0_1
      (Host.reduceAdd (mulf (centred x p) (centred x p)) (constant S_ .f32 0x00000000#32) reducesTo_S64x1024x768_S64x1024_d2 h_S_))
    (broadcastInDim S64x1024x1 ![] bcast_S_S64x1024x1 (constant S_ .f32 0x44400000#32))

/-- The square root of each row's variance plus the offset. -/
def sdCol (x : FVec F S64x1024x768 .f32) (p : FVec F S1024x768 .f32) : FVec F S64x1024x1 .f32 :=
  Host.sqrt (addf (varCol x p) (broadcastInDim S64x1024x1 ![] bcast_S_S64x1024x1 (constant S_ .f32 0x2B8CBCCC#32)))

/-- The reference's result as one function of its four argument arrays. -/
def refTerm (x : FVec F S64x1024x768 .f32) (p : FVec F S1024x768 .f32) (γ β : FVec F S768 .f32) : FVec F S64x1024x768 .f32 :=
  addf
    (mulf
      (Host.divf (centred x p) (broadcastInDim S64x1024x768 ![0, 1, 2] bcast_S64x1024x1_S64x1024x768_0_1_2 (sdCol x p)))
      (broadcastInDim S64x1024x768 ![0, 1, 2] bcast_S1x1x768_S64x1024x768_0_1_2 (broadcastInDim S1x1x768 ![2] bcast_S768_S1x1x768_2 γ)))
    (broadcastInDim S64x1024x768 ![0, 1, 2] bcast_S1x1x768_S64x1024x768_0_1_2 (broadcastInDim S1x1x768 ![2] bcast_S768_S1x1x768_2 β))

end Cert.ReferenceIdeal.RefRun

end
-- ==== Proof.RefRun.lean ====
/-
  The reference program's run. The program is a straight line of fifty-six array operations: three build the position
  table, twenty-three are the row lookup (two functions the program calls, unfolded at their calls over the calls' own
  buffers), thirty are the normalisation. Every weakly fair execution ends with the result array at the operations'
  composed function of the four argument arrays (`refTerm`), the arguments unchanged.
-/
import proofs.«114764_g67765993996428_cont_9to1_m_62_20_alg».proof.ReferenceIdeal
import proofs.«114764_g67765993996428_cont_9to1_m_62_20_alg».proof.Proof.Gen.ReferenceIdeal
import proofs.«114764_g67765993996428_cont_9to1_m_62_20_alg».proof.Proof.Spec
import proofs.«114764_g67765993996428_cont_9to1_m_62_20_alg».proof.Proof.RefTerm
import Idealize.ShloMosaic.Lib.StableHlo.Run
import Idealize.ShloMosaic.Lib.ValueIdx
import Idealize.ShloMosaic.PureOps.Ideal.Laws

noncomputable section

namespace Cert.ReferenceIdeal.RefRun

open Idealize.ShloMosaic Idealize.ShloMosaic.TcCoe Idealize.SL.Sem Idealize.ShloMosaic.StableHlo Cert.ReferenceIdeal
open Cert.ReferenceIdeal.Facts₀

variable {F : FTy → Type} [FloatOps F] [Facts]

/-- The reference's operations in order, the two calls unfolded: the position table (three), the lookup's
    twenty-three into the call's buffers (the selection of the wrapped index among them), then the thirty of the
    normalisation. -/
abbrev ops : List (HloOp τ sig (Elt F)) :=
  [ nullary main_v0 (iotaInDim S1024 32 0),
    unary main_v0 main_v1 (broadcastInDim S1x1024 ![1] bcast_S1024_S1x1024_1 : (⟨S1024, .i32⟩ : BufTy).Contents (Elt F) → (⟨S1x1024, .i32⟩ : BufTy).Contents (Elt F)),
    unary main_v1 main_v2 (broadcastInDim S64x1024 ![0, 1] bcast_S1x1024_S64x1024_0_1 : (⟨S1x1024, .i32⟩ : BufTy).Contents (Elt F) → (⟨S64x1024, .i32⟩ : BufTy).Contents (Elt F)),
    TRef.nullary main_call0.c (constantI S_ 32 0#32),
    TRef.unary main_call0.c main_call0.v0 (broadcastInDim S64x1024 ![] bcast_S_S64x1024),
    TRef.binary (.of main_v2) main_call0.v0 main_call0.v1 (cmpi .slt),
    TRef.nullary main_call0.c_0 (constantI S_ 32 1024#32),
    TRef.unary main_call0.c_0 main_call0.v2 (broadcastInDim S64x1024 ![] bcast_S_S64x1024),
    TRef.binary (.of main_v2) main_call0.v2 main_call0.v3 addi,
    TRef.ternary main_call0.v1 main_call0.v3 (.of main_v2) main_call0.call0.v0 select,
    TRef.unary main_call0.call0.v0 main_call0.v5 (broadcastInDim S64x1024x1 ![0, 1] bcast_S64x1024_S64x1024x1_0_1),
    TRef.nullary main_call0.c_1 (constantI S1 32 1023#32),
    TRef.nullary main_call0.c_2 (constantI S_ 32 0#32),
    TRef.unary main_call0.c_2 main_call0.v6 (broadcastInDim S64x1024x1 ![] bcast_S_S64x1024x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S64x1024x1 ![0, 1, 2] bcast_S1x1x1_S64x1024x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S64x1024x1_S64x1024_d2 h_S_),
    TRef.binary (.of main_arg1) main_call0.v5 main_call0.v13 (fun x i => Host.gather gather_S1024x768_S64x1024x1_S64x1024x768_2_0_n_n_0_2_1768 x i),
    TRef.unary main_call0.v12 main_call0.v14 (broadcastInDim S64x1024x768 ![0, 1] bcast_S64x1024_S64x1024x768_0_1),
    TRef.nullary main_call0.cst (constant S_ .f32 0x7FC00000#32),
    TRef.unary main_call0.cst main_call0.v15 (broadcastInDim S64x1024x768 ![] bcast_S_S64x1024x768),
    TRef.ternary main_call0.v14 main_call0.v13 main_call0.v15 main_call0.v16 select,
    binary main_arg0 main_v3 main_v4 (addf : (⟨S64x1024x768, .f32⟩ : BufTy).Contents (Elt F) → (⟨S64x1024x768, .f32⟩ : BufTy).Contents (Elt F) → (⟨S64x1024x768, .f32⟩ : BufTy).Contents (Elt F)),
    nullary main_cst (constant S_ .f32 0x00000000#32),
    binary main_v4 main_cst main_v5 ((fun x v => Host.reduceAdd x v reducesTo_S64x1024x768_S64x1024_d2 h_S_) : (⟨S64x1024x768, .f32⟩ : BufTy).Contents (Elt F) → (⟨S_, .f32⟩ : BufTy).Contents (Elt F) → (⟨S64x1024, .f32⟩ : BufTy).Contents (Elt F)),
    unary main_v5 main_v6 (broadcastInDim S64x1024x1 ![0, 1] bcast_S64x1024_S64x1024x1_0_1 : (⟨S64x1024, .f32⟩ : BufTy).Contents (Elt F) → (⟨S64x1024x1, .f32⟩ : BufTy).Contents (Elt F)),
    nullary main_cst_0 (constant S_ .f32 0x44400000#32),
    unary main_cst_0 main_v7 (broadcastInDim S64x1024x1 ![] bcast_S_S64x1024x1 : (⟨S_, .f32⟩ : BufTy).Contents (Elt F) → (⟨S64x1024x1, .f32⟩ : BufTy).Contents (Elt F)),
    binary main_v6 main_v7 main_v8 (Host.divf : (⟨S64x1024x1, .f32⟩ : BufTy).Contents (Elt F) → (⟨S64x1024x1, .f32⟩ : BufTy).Contents (Elt F) → (⟨S64x1024x1, .f32⟩ : BufTy).Contents (Elt F)),
    unary main_v8 main_v9 (broadcastInDim S64x1024x768 ![0, 1, 2] bcast_S64x1024x1_S64x1024x768_0_1_2 : (⟨S64x1024x1, .f32⟩ : BufTy).Contents (Elt F) → (⟨S64x1024x768, .f32⟩ : BufTy).Contents (Elt F)),
    binary main_v4 main_v9 main_v10 (subf : (⟨S64x1024x768, .f32⟩ : BufTy).Contents (Elt F) → (⟨S64x1024x768, .f32⟩ : BufTy).Contents (Elt F) → (⟨S64x1024x768, .f32⟩ : BufTy).Contents (Elt F)),
    binary main_v10 main_v10 main_v11 (mulf : (⟨S64x1024x768, .f32⟩ : BufTy).Contents (Elt F) → (⟨S64x1024x768, .f32⟩ : BufTy).Contents (Elt F) → (⟨S64x1024x768, .f32⟩ : BufTy).Contents (Elt F)),
    nullary main_cst_1 (constant S_ .f32 0x00000000#32),
    binary main_v11 main_cst_1 main_v12 ((fun x v => Host.reduceAdd x v reducesTo_S64x1024x768_S64x1024_d2 h_S_) : (⟨S64x1024x768, .f32⟩ : BufTy).Contents (Elt F) → (⟨S_, .f32⟩ : BufTy).Contents (Elt F) → (⟨S64x1024, .f32⟩ : BufTy).Contents (Elt F)),
    unary main_v12 main_v13 (broadcastInDim S64x1024x1 ![0, 1] bcast_S64x1024_S64x1024x1_0_1 : (⟨S64x1024, .f32⟩ : BufTy).Contents (Elt F) → (⟨S64x1024x1, .f32⟩ : BufTy).Contents (Elt F)),
    nullary main_cst_2 (constant S_ .f32 0x44400000#32),
    unary main_cst_2 main_v14 (broadcastInDim S64x1024x1 ![] bcast_S_S64x1024x1 : (⟨S_, .f32⟩ : BufTy).Contents (Elt F) → (⟨S64x1024x1, .f32⟩ : BufTy).Contents (Elt F)),
    binary main_v13 main_v14 main_v15 (Host.divf : (⟨S64x1024x1, .f32⟩ : BufTy).Contents (Elt F) → (⟨S64x1024x1, .f32⟩ : BufTy).Contents (Elt F) → (⟨S64x1024x1, .f32⟩ : BufTy).Contents (Elt F)),
    unary main_v8 main_v16 (broadcastInDim S64x1024x768 ![0, 1, 2] bcast_S64x1024x1_S64x1024x768_0_1_2 : (⟨S64x1024x1, .f32⟩ : BufTy).Contents (Elt F) → (⟨S64x1024x768, .f32⟩ : BufTy).Contents (Elt F)),
    binary main_v4 main_v16 main_v17 (subf : (⟨S64x1024x768, .f32⟩ : BufTy).Contents (Elt F) → (⟨S64x1024x768, .f32⟩ : BufTy).Contents (Elt F) → (⟨S64x1024x768, .f32⟩ : BufTy).Contents (Elt F)),
    nullary main_cst_3 (constant S_ .f32 0x2B8CBCCC#32),
    unary main_cst_3 main_v18 (broadcastInDim S64x1024x1 ![] bcast_S_S64x1024x1 : (⟨S_, .f32⟩ : BufTy).Contents (Elt F) → (⟨S64x1024x1, .f32⟩ : BufTy).Contents (Elt F)),
    binary main_v15 main_v18 main_v19 (addf : (⟨S64x1024x1, .f32⟩ : BufTy).Contents (Elt F) → (⟨S64x1024x1, .f32⟩ : BufTy).Contents (Elt F) → (⟨S64x1024x1, .f32⟩ : BufTy).Contents (Elt F)),
    unary main_v19 main_v20 (Host.sqrt : (⟨S64x1024x1, .f32⟩ : BufTy).Contents (Elt F) → (⟨S64x1024x1, .f32⟩ : BufTy).Contents (Elt F)),
    unary main_v20 main_v21 (broadcastInDim S64x1024x768 ![0, 1, 2] bcast_S64x1024x1_S64x1024x768_0_1_2 : (⟨S64x1024x1, .f32⟩ : BufTy).Contents (Elt F) → (⟨S64x1024x768, .f32⟩ : BufTy).Contents (Elt F)),
    binary main_v17 main_v21 main_v22 (Host.divf : (⟨S64x1024x768, .f32⟩ : BufTy).Contents (Elt F) → (⟨S64x1024x768, .f32⟩ : BufTy).Contents (Elt F) → (⟨S64x1024x768, .f32⟩ : BufTy).Contents (Elt F)),
    unary main_arg2 main_v23 (broadcastInDim S1x1x768 ![2] bcast_S768_S1x1x768_2 : (⟨S768, .f32⟩ : BufTy).Contents (Elt F) → (⟨S1x1x768, .f32⟩ : BufTy).Contents (Elt F)),
    unary main_v23 main_v24 (broadcastInDim S64x1024x768 ![0, 1, 2] bcast_S1x1x768_S64x1024x768_0_1_2 : (⟨S1x1x768, .f32⟩ : BufTy).Contents (Elt F) → (⟨S64x1024x768, .f32⟩ : BufTy).Contents (Elt F)),
    binary main_v22 main_v24 main_v25 (mulf : (⟨S64x1024x768, .f32⟩ : BufTy).Contents (Elt F) → (⟨S64x1024x768, .f32⟩ : BufTy).Contents (Elt F) → (⟨S64x1024x768, .f32⟩ : BufTy).Contents (Elt F)),
    unary main_arg3 main_v26 (broadcastInDim S1x1x768 ![2] bcast_S768_S1x1x768_2 : (⟨S768, .f32⟩ : BufTy).Contents (Elt F) → (⟨S1x1x768, .f32⟩ : BufTy).Contents (Elt F)),
    unary main_v26 main_v27 (broadcastInDim S64x1024x768 ![0, 1, 2] bcast_S1x1x768_S64x1024x768_0_1_2 : (⟨S1x1x768, .f32⟩ : BufTy).Contents (Elt F) → (⟨S64x1024x768, .f32⟩ : BufTy).Contents (Elt F)),
    binary main_v25 main_v27 main_v28 (addf : (⟨S64x1024x768, .f32⟩ : BufTy).Contents (Elt F) → (⟨S64x1024x768, .f32⟩ : BufTy).Contents (Elt F) → (⟨S64x1024x768, .f32⟩ : BufTy).Contents (Elt F)) ]

set_option maxRecDepth 4096 in
/-- The program is that straight line: the two functions' definitions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

set_option maxRecDepth 8192 in
set_option maxHeartbeats 1000000 in
/-- The fold of the operations at the result buffer is `refTerm` of the contents of the four argument buffers: each
    operation's result at its own buffer is its function of its operands' contents, at any other buffer what was there;
    the transports of a called function's values along the identity of their types are the identity. -/
theorem out_eq (V : Valuation τ sig (Elt F)) :
    after ops V (Proc.devRef .tc main_v28)
      = refTerm (F := F) (V (Proc.devRef .tc main_arg0)) (V (Proc.devRef .tc main_arg1)) (V (Proc.devRef .tc main_arg2))
          (V (Proc.devRef .tc main_arg3)) := by
  after_results_simp
  simp only [TRef.ofBuf, TRef.toBuf, cast_eq]
  rfl

/-- No operation writes an argument buffer. -/
theorem arg0_eq (V : Valuation τ sig (Elt F)) : after ops V (Proc.devRef .tc main_arg0) = V (Proc.devRef .tc main_arg0) := by
  after_results_simp
theorem arg1_eq (V : Valuation τ sig (Elt F)) : after ops V (Proc.devRef .tc main_arg1) = V (Proc.devRef .tc main_arg1) := by
  after_results_simp
theorem arg2_eq (V : Valuation τ sig (Elt F)) : after ops V (Proc.devRef .tc main_arg2) = V (Proc.devRef .tc main_arg2) := by
  after_results_simp
theorem arg3_eq (V : Valuation τ sig (Elt F)) : after ops V (Proc.devRef .tc main_arg3) = V (Proc.devRef .tc main_arg3) := by
  after_results_simp

/-- On every device, for any float values, from any memory with zero counters: every weakly fair execution of the
    reference terminates with its result at `refTerm` of the argument arrays and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28) = refTerm (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v28).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.ReferenceIdeal.RefRun

end
-- ==== Proof.RefValue.lean ====
/-
  The reference's composed term is the spec array, entry by entry.

  At (b, n, j): the position table holds n; n is not negative as a signed 32-bit word, so the wrap by the table's length
  leaves it; n passes the range test 0 ≤ n ≤ 1023, so the lookup's fill value never shows; the lookup reads the table's
  row n (the clamp into 0 … 1023 leaves n), so the summed row is k ↦ x (b, n, k) + p (n, k). The sums over the last axis
  start from zero and are the sums of the row's 768 entries, so the mean, centred entry, variance and root are the
  row's; the result is the centred entry over the root, times γ j, plus β j.
-/
import proofs.«114764_g67765993996428_cont_9to1_m_62_20_alg».proof.Proof.RefTerm
import proofs.«114764_g67765993996428_cont_9to1_m_62_20_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce
import Idealize.ShloMosaic.Lib.StableHlo.Predicate

noncomputable section

namespace Cert.ReferenceIdeal.RefRun

open Idealize.ShloMosaic Idealize.ShloMosaic.ValueIdx Cert.ReferenceIdeal
open Cert.ReferenceIdeal.Facts₀
open scoped BigOperators

/-! ## Layout operations read at an index given by coordinates -/

section Reads
variable {α : Type}

/-- A [64, 1024] array given a trailing unit axis reads, at (b, n, ·), the array at (b, n). -/
theorem bc_R_C (h : S64x1024.BroadcastsInDim S64x1024x1 ![0, 1]) (v : S64x1024.Idx → α) (b : Fin 64) (n : Fin 1024) (z : Fin 1) :
    broadcastInDim S64x1024x1 ![0, 1] h v (ix3 b n z) = v (ix2 b n) :=
  broadcastInDim_apply _ h v _ _ (fun a => match a with | ⟨0, _⟩ => rfl | ⟨1, _⟩ => rfl)

/-- A [64, 1024, 1] array laid along rows of 768 reads, at (b, n, j), the array at (b, n, 0). -/
theorem bc_C_X (h : S64x1024x1.BroadcastsInDim S64x1024x768 ![0, 1, 2]) (v : S64x1024x1.Idx → α) (b : Fin 64) (n : Fin 1024) (j : Fin 768) :
    broadcastInDim S64x1024x768 ![0, 1, 2] h v (ix3 b n j) = v (ix3 b n (0 : Fin 1)) :=
  broadcastInDim_apply _ h v _ _ (fun a => match a with | ⟨0, _⟩ => rfl | ⟨1, _⟩ => rfl | ⟨2, _⟩ => rfl)

/-- A [64, 1024] array laid along rows of 768 reads, at (b, n, j), the array at (b, n). -/
theorem bc_R_X (h : S64x1024.BroadcastsInDim S64x1024x768 ![0, 1]) (v : S64x1024.Idx → α) (b : Fin 64) (n : Fin 1024) (j : Fin 768) :
    broadcastInDim S64x1024x768 ![0, 1] h v (ix3 b n j) = v (ix2 b n) :=
  broadcastInDim_apply _ h v _ _ (fun a => match a with | ⟨0, _⟩ => rfl | ⟨1, _⟩ => rfl)

/-- A vector of 768 laid along the last axis reads, at (b, n, j), the vector at j. -/
theorem bc_V_X (h : S1x1x768.BroadcastsInDim S64x1024x768 ![0, 1, 2]) (h' : S768.BroadcastsInDim S1x1x768 ![2]) (g : S768.Idx → α)
    (b : Fin 64) (n : Fin 1024) (j : Fin 768) :
    broadcastInDim S64x1024x768 ![0, 1, 2] h (broadcastInDim S1x1x768 ![2] h' g) (ix3 b n j) = g (ix1 j) :=
  (broadcastInDim_apply _ h _ _ (ix3 (0 : Fin 1) (0 : Fin 1) j)
    (fun a => match a with | ⟨0, _⟩ => rfl | ⟨1, _⟩ => rfl | ⟨2, _⟩ => rfl)).trans
    (broadcastInDim_apply _ h' g _ (ix1 j) (fun a => match a with | ⟨0, _⟩ => rfl))

/-- The positions 0 … 1023 laid along the rows of a [64, 1024] table read, at (b, n), the position n. -/
theorem bc_iota (h : S1x1024.BroadcastsInDim S64x1024 ![0, 1]) (h' : S1024.BroadcastsInDim S1x1024 ![1]) (g : S1024.Idx → α)
    (b : Fin 64) (n : Fin 1024) :
    broadcastInDim S64x1024 ![0, 1] h (broadcastInDim S1x1024 ![1] h' g) (ix2 b n) = g (ix1 n) :=
  (broadcastInDim_apply _ h _ _ (ix2 (0 : Fin 1) n)
    (fun a => match a with | ⟨0, _⟩ => rfl | ⟨1, _⟩ => rfl)).trans
    (broadcastInDim_apply _ h' g _ (ix1 n) (fun a => match a with | ⟨0, _⟩ => rfl))

/-- A reduction by `and` of an array of ones, from one, is one. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  have key : ∀ (l : List s.Idx) (r : BitVec 1), r = 1#1 → l.foldl (fun r i => IntOp.andi r (x i)) r = 1#1 := by
    intro l
    induction l with
    | nil => intro r hr; exact hr
    | cons a l ih => intro r hr; rw [List.foldl_cons]; exact ih _ (by rw [hr, hx a]; rfl)
  rw [Host.reduce_eq_foldl]
  exact key _ _ hi

/-- The row lookup read at (b, n, j): row `idx (b, n, 0)` of the table, read signed and clamped into the table, at column j. -/
theorem gather_rows_apply [Facts] {w : Nat} (p : S1024x768.Idx → α) (idx : IVec S64x1024x1 w) (b : Fin 64) (n : Fin 1024) (j : Fin 768) :
    Host.gather gather_S1024x768_S64x1024x1_S64x1024x768_2_0_n_n_0_2_1768 p idx (ix3 b n j)
      = p (ix2 (⟨min (idx (ix3 b n (0 : Fin 1))).toInt.toNat 1023, by omega⟩ : Fin 1024) j) := by
  unfold Host.gather
  refine congrArg p (funext fun a => Fin.ext ?_)
  match a with
  | ⟨0, _⟩ =>
    show GatherDims.start _ (ix3 b n j) idx 0 + GatherDims.batchCoord _ (ix3 b n j) 0 + GatherDims.offCoord _ (ix3 b n j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S1024x768_S64x1024x1_S64x1024x768_2_0_n_n_0_2_1768).startIndexMap from List.mem_singleton.mpr rfl)]
    have hsi : (gather_S1024x768_S64x1024x1_S64x1024x768_2_0_n_n_0_2_1768).siIdx (ix3 b n j)
        ⟨List.idxOf (0 : Fin 2) (gather_S1024x768_S64x1024x1_S64x1024x768_2_0_n_n_0_2_1768).startIndexMap,
          List.idxOf_lt_length_iff.2 (List.mem_singleton.mpr rfl)⟩ = ix3 b n (0 : Fin 1) := by
      funext c; refine Fin.ext ?_
      match c with
      | ⟨0, _⟩ => rfl
      | ⟨1, _⟩ => rfl
      | ⟨2, _⟩ => rfl
    rw [hsi]
    rfl
  | ⟨1, _⟩ =>
    show GatherDims.start _ (ix3 b n j) idx 1 + GatherDims.batchCoord _ (ix3 b n j) 1 + GatherDims.offCoord _ (ix3 b n j) 1 = _
    rw [GatherDims.batchCoord_eq_zero _ _ _ List.not_mem_nil]
    unfold GatherDims.start
    rw [dif_neg (show (1 : Fin 2) ∉ (gather_S1024x768_S64x1024x1_S64x1024x768_2_0_n_n_0_2_1768).startIndexMap from by decide)]
    simp only [Nat.zero_add, Nat.add_zero]
    rfl

end Reads

/-! ## Words: a position below 1024 as a signed 32-bit word -/

section Words

/-- A position below 1024 is its own word's value. -/
theorem toNat_small (n : Nat) (hn : n < 1024) : (BitVec.ofNat 32 n).toNat = n := by
  rw [BitVec.toNat_ofNat]; exact Nat.mod_eq_of_lt (by omega)

/-- A position below 1024 is not negative as a signed word, so wrapping it by the table's length leaves it. -/
theorem wrap_small (n : Nat) (hn : n < 1024) :
    Scalar.select (IntOp.cmpi .slt (BitVec.ofNat 32 n) 0#32) (IntOp.addi (BitVec.ofNat 32 n) 1024#32) (BitVec.ofNat 32 n)
      = BitVec.ofNat 32 n := by
  have h : ¬ IntOp.cmpi .slt (BitVec.ofNat 32 n) 0#32 = 1#1 := by
    rw [StableHlo.Predicate.slt_iff_toNat (by rw [toNat_small n hn]; omega) (by decide)]
    exact Nat.not_lt_zero _
  exact if_neg h

/-- A position below 1024 passes both range tests: 0 ≤ n and n ≤ 1023 as signed words. -/
theorem inRange_small (n : Nat) (hn : n < 1024) :
    IntOp.andi (IntOp.cmpi .sge (BitVec.ofNat 32 n) 0#32) (IntOp.cmpi .sle (BitVec.ofNat 32 n) 1023#32) = 1#1 := by
  have h1 : IntOp.cmpi .sge (BitVec.ofNat 32 n) 0#32 = 1#1 :=
    (StableHlo.Predicate.sge_iff_toNat (by rw [toNat_small n hn]; omega) (by decide)).2 (Nat.zero_le _)
  have h2 : IntOp.cmpi .sle (BitVec.ofNat 32 n) 1023#32 = 1#1 :=
    (StableHlo.Predicate.sle_iff_toNat (by rw [toNat_small n hn]; omega) (by decide)).2 (by
      rw [toNat_small n hn]; show n ≤ 1023; omega)
  rw [h1, h2]; rfl

/-- A position below 1024, read signed and clamped into 0 … 1023, is itself. -/
theorem clamp_small (n : Nat) (hn : n < 1024) : min (BitVec.ofNat 32 n).toInt.toNat 1023 = n := by
  rw [StableHlo.Predicate.toInt_ofNat_small n (by omega), Int.toNat_natCast]
  exact Nat.min_eq_left (by omega)

end Words

/-! ## The integer stages: positions, the wrap, the range test, the lookup -/

section Stages
variable [Facts]

/-- The position table at (b, n) holds n. -/
theorem pos_apply (b : Fin 64) (n : Fin 1024) : pos (ix2 b n) = BitVec.ofNat 32 n.val := by
  unfold pos
  exact bc_iota _ _ _ b n

/-- The wrapped position at (b, n) is still n. -/
theorem wrapped_apply (b : Fin 64) (n : Fin 1024) : wrapped (ix2 b n) = BitVec.ofNat 32 n.val := by
  unfold wrapped
  show Scalar.select (IntOp.cmpi .slt (pos (ix2 b n)) 0#32) (IntOp.addi (pos (ix2 b n)) 1024#32) (pos (ix2 b n)) = _
  rw [pos_apply]
  exact wrap_small n.val n.isLt

/-- The start index at (b, n, ·) is n. -/
theorem starts_apply (b : Fin 64) (n : Fin 1024) (z : Fin 1) : starts (ix3 b n z) = BitVec.ofNat 32 n.val := by
  unfold starts
  exact (bc_R_C _ wrapped b n z).trans (wrapped_apply b n)

/-- Every start index lies in the table. -/
theorem inRange_apply (b : Fin 64) (n : Fin 1024) : inRange (ix2 b n) = 1#1 := by
  unfold inRange
  refine reduce_andi_ones _ _ _ _ _ (fun i => ?_) rfl
  obtain ⟨b', n', z, rfl⟩ : ∃ (b' : Fin 64) (n' : Fin 1024) (z : Fin 1), i = ix3 b' n' z := ⟨i 0, i 1, i 2, eq_ix3 i⟩
  show IntOp.andi (IntOp.cmpi .sge (starts (ix3 b' n' z)) 0#32) (IntOp.cmpi .sle (starts (ix3 b' n' z)) 1023#32) = 1#1
  rw [starts_apply]
  exact inRange_small n'.val n'.isLt

/-- The looked-up rows at (b, n, j): the table's row n at j; the fill value never shows. -/
theorem taken_apply (p : FVec Ideal S1024x768 .f32) (b : Fin 64) (n : Fin 1024) (j : Fin 768) :
    taken (F := Ideal) p (ix3 b n j) = p (ix2 n j) := by
  unfold taken
  refine (select_apply _ _ _ _).trans ?_
  rw [bc_R_X, inRange_apply, select_one, gather_rows_apply]
  refine congrArg (fun r => p (ix2 r j)) (Fin.ext ?_)
  show min (starts (ix3 b n (0 : Fin 1))).toInt.toNat 1023 = n.val
  rw [starts_apply]
  exact clamp_small n.val n.isLt

/-! ## The float stages, on the extended reals -/

/-- The reduction over the last axis, as the kernel-style shape fact that names the inserted index. -/
theorem reduces_d2 : S64x1024x768.Reduces [2] S64x1024 := by decide

/-- The source index over (b, n) with lane k inserted is (b, n, k). -/
theorem lift_d2 (b : Fin 64) (n : Fin 1024) (k : Fin 768) : reduces_d2.lift (ix2 b n) k = ix3 b n k := by
  funext c
  match c with
  | ⟨0, _⟩ => exact Fin.ext rfl
  | ⟨1, _⟩ => exact Fin.ext rfl
  | ⟨2, _⟩ => exact Fin.ext rfl

/-- A quotient of arrays at an index is the quotient of the entries. -/
theorem hostDivf_apply {s : Shape} (a c : FVec Ideal s .f32) (i : s.Idx) : Host.divf a c i = Ideal.div (a i) (c i) := rfl

/-- The sum over the last axis from zero, at (b, n): the sum of the 768 entries of that row. -/
theorem rowSum_apply (V : FVec Ideal S64x1024x768 .f32) (b : Fin 64) (n : Fin 1024) :
    Host.reduceAdd (F := Ideal) V (constant S_ .f32 0x00000000#32) reducesTo_S64x1024x768_S64x1024_d2 h_S_ (ix2 b n)
      = ∑ k : Fin 768, V (ix3 b n k) := by
  refine (Ideal.hostReduceAdd_single reducesTo_S64x1024x768_S64x1024_d2 reduces_d2 V (Ideal.ofBits .f32 0x00000000#32) (ix2 b n)).trans ?_
  rw [Ideal.ofBits_zero_f32, zero_add]
  exact Finset.sum_congr rfl fun k _ => congrArg V (lift_d2 b n k)

/-- The summed array at (b, n, k) is the row of x + p at batch b and position n, at k. -/
theorem summed_apply (x : FVec Ideal S64x1024x768 .f32) (p : FVec Ideal S1024x768 .f32) (b : Fin 64) (n : Fin 1024) (k : Fin 768) :
    summed (F := Ideal) x p (ix3 b n k) = Cert.LayerNorm.hrow x p b n k := by
  unfold summed Cert.LayerNorm.hrow
  refine (addf_apply _ _ _).trans ?_
  rw [taken_apply]

/-- The mean column at (b, n, ·) is the row's mean. -/
theorem meanCol_apply (x : FVec Ideal S64x1024x768 .f32) (p : FVec Ideal S1024x768 .f32) (b : Fin 64) (n : Fin 1024) (z : Fin 1) :
    meanCol (F := Ideal) x p (ix3 b n z) = Cert.LayerNorm.mean (Cert.LayerNorm.hrow x p b n) := by
  unfold meanCol Cert.LayerNorm.mean
  refine (hostDivf_apply _ _ _).trans ?_
  refine congrArg₂ Ideal.div ?_ rfl
  refine (bc_R_C _ _ b n z).trans ?_
  refine (rowSum_apply _ b n).trans ?_
  exact Finset.sum_congr rfl fun k _ => summed_apply x p b n k

/-- The centred array at (b, n, j) is the row's centred entry at j. -/
theorem centred_apply (x : FVec Ideal S64x1024x768 .f32) (p : FVec Ideal S1024x768 .f32) (b : Fin 64) (n : Fin 1024) (j : Fin 768) :
    centred (F := Ideal) x p (ix3 b n j) = Cert.LayerNorm.cen (Cert.LayerNorm.hrow x p b n) j := by
  unfold centred Cert.LayerNorm.cen
  refine (subf_apply _ _ _).trans ?_
  exact congrArg₂ (· - ·) (summed_apply x p b n j) ((bc_C_X _ _ b n j).trans (meanCol_apply x p b n 0))

/-- The variance column at (b, n, ·) is the row's variance. -/
theorem varCol_apply (x : FVec Ideal S64x1024x768 .f32) (p : FVec Ideal S1024x768 .f32) (b : Fin 64) (n : Fin 1024) (z : Fin 1) :
    varCol (F := Ideal) x p (ix3 b n z) = Cert.LayerNorm.var (Cert.LayerNorm.hrow x p b n) := by
  unfold varCol Cert.LayerNorm.var
  refine (hostDivf_apply _ _ _).trans ?_
  refine congrArg₂ Ideal.div ?_ rfl
  refine (bc_R_C _ _ b n z).trans ?_
  refine (rowSum_apply _ b n).trans ?_
  refine Finset.sum_congr rfl fun k _ => ?_
  refine (mulf_apply _ _ _).trans ?_
  exact congrArg₂ (· * ·) (centred_apply x p b n k) (centred_apply x p b n k)

/-- The root column at (b, n, ·) is the square root of the row's variance plus the offset. -/
theorem sdCol_apply (x : FVec Ideal S64x1024x768 .f32) (p : FVec Ideal S1024x768 .f32) (b : Fin 64) (n : Fin 1024) (z : Fin 1) :
    sdCol (F := Ideal) x p (ix3 b n z) = Ideal.sqrt (Cert.LayerNorm.var (Cert.LayerNorm.hrow x p b n) + Cert.LayerNorm.eps) := by
  unfold sdCol
  show Ideal.sqrt (addf (varCol (F := Ideal) x p) (broadcastInDim S64x1024x1 ![] bcast_S_S64x1024x1 (constant S_ .f32 0x2B8CBCCC#32)) (ix3 b n z)) = _
  refine congrArg Ideal.sqrt ?_
  refine (addf_apply _ _ _).trans ?_
  exact congrArg₂ (· + ·) (varCol_apply x p b n z) rfl

end Stages

/-- The reference's composed term is the array of rows of x + p normalised by the quotient with the root, scaled and shifted. -/
theorem refTerm_eq_G [Cert.ReferenceIdeal.Facts] (x : FVec Ideal S64x1024x768 .f32) (p : FVec Ideal S1024x768 .f32) (γ β : FVec Ideal S768 .f32) :
    refTerm (F := Ideal) x p γ β = Cert.LayerNorm.G x p γ β := by
  funext i
  obtain ⟨b, n, j, rfl⟩ : ∃ (b : Fin 64) (n : Fin 1024) (j : Fin 768), i = ix3 b n j := ⟨i 0, i 1, i 2, eq_ix3 i⟩
  unfold refTerm
  refine (addf_apply _ _ _).trans ?_
  show _ = Cert.LayerNorm.rowR (Cert.LayerNorm.hrow x p b n) (γ (ix1 j)) (β (ix1 j)) j
  unfold Cert.LayerNorm.rowR
  refine congrArg₂ (· + ·) ?_ (bc_V_X _ _ β b n j)
  refine (mulf_apply _ _ _).trans ?_
  refine congrArg₂ (· * ·) ?_ (bc_V_X _ _ γ b n j)
  refine (hostDivf_apply _ _ _).trans ?_
  refine congrArg₂ Ideal.div (centred_apply x p b n j) ?_
  exact (bc_C_X _ _ b n j).trans (sdCol_apply x p b n 0)

end Cert.ReferenceIdeal.RefRun

end
-- ==== Proof.lean ====
/-
  Position-embedding add followed by layer normalisation over the hidden axis: the kernel against its reference,
  over the extended reals.

  Both programs compute, at batch b, position n and lane j, the row k ↦ x (b, n, k) + pos (n, k) centred by its
  mean, scaled by (variance + ε)^(-1/2), times γ j plus β j. The kernel works on the input flattened to 65536 rows
  in blocks of 3072 rows — a multiple of the table's 1024 rows, so row r of a block meets table row r mod 1024 —
  and multiplies by the reciprocal square root; the reference looks the table up by the identity index array (always
  in range, so its out-of-range fill never shows) and divides by the square root. On real inputs the variance is a
  non-negative real and ε a positive real, so the reciprocal root times c and the quotient of c by the root are one
  real number: that is where the precondition (every input finite) is used, and the only place.

  The last of the 22 blocks overhangs the array by 2048 rows; its fetch and write-back are cut at the array's end
  and the staging buffer's tail holds words nothing names. A row's result depends on that row only, so at the ideal
  instance the rows inside the array are what the formula says whatever the tail holds, and the result array is
  named. At the word-level instance the lane sum is a function of the whole block about which nothing is known, so
  the word-level frame says nothing of the result array: it is the statement that the run ends and the four
  arguments are kept, which is all the frame claims.
-/
import proofs.«114764_g67765993996428_cont_9to1_m_62_20_alg».proof.Defs
import proofs.«114764_g67765993996428_cont_9to1_m_62_20_alg».proof.Proof.Gen.Kernel
import proofs.«114764_g67765993996428_cont_9to1_m_62_20_alg».proof.Proof.Gen.KernelIdeal
import proofs.«114764_g67765993996428_cont_9to1_m_62_20_alg».proof.Proof.Gen.ReferenceIdeal
import proofs.«114764_g67765993996428_cont_9to1_m_62_20_alg».proof.Proof.Gen.Pre_finite_inputs
import proofs.«114764_g67765993996428_cont_9to1_m_62_20_alg».proof.Proof.Spec
import proofs.«114764_g67765993996428_cont_9to1_m_62_20_alg».proof.Proof.Finite
import proofs.«114764_g67765993996428_cont_9to1_m_62_20_alg».proof.Proof.Payload
import proofs.«114764_g67765993996428_cont_9to1_m_62_20_alg».proof.Proof.FrameBits
import proofs.«114764_g67765993996428_cont_9to1_m_62_20_alg».proof.Proof.IdealRun
import proofs.«114764_g67765993996428_cont_9to1_m_62_20_alg».proof.Proof.IdealValue
import proofs.«114764_g67765993996428_cont_9to1_m_62_20_alg».proof.Proof.RefRun
import proofs.«114764_g67765993996428_cont_9to1_m_62_20_alg».proof.Proof.RefValue
import Idealize.ShloMosaic.Adequacy
import Idealize.ShloMosaic.Init

noncomputable section

namespace Cert.Proof

open Idealize.ShloMosaic Idealize.ShloMosaic.TcCoe Idealize.SL.Sem

/-- The stored value of the kernel body read at a row and a lane, in the two forms the run and the value take it. -/
theorem payI : Cert.KernelIdeal.RunI.PayAt := fun X Pm Gm Bm r j => Cert.KernelIdeal.PayIdx.pay_apply X Pm Gm Bm r j
theorem payV : Cert.KernelIdeal.RunValue.PayAt := fun X Pm Gm Bm r j => Cert.KernelIdeal.PayIdx.pay_apply X Pm Gm Bm r j

/-- The word-level kernel runs to the end and keeps its arguments (the result's window forgotten). -/
theorem frame_k : Cert.frame_Kernel := fun m ρ _ => Cert.Kernel.FrameB.frame (F := Bits) m ρ

/-- The idealised kernel runs to the end and keeps its arguments: its named run, read at the arguments. -/
theorem frame_ki : Cert.frame_KernelIdeal := fun m ρ _ =>
  Cert.KernelIdeal.Gen.frame_of m ρ (Cert.KernelIdeal.Run.dats m) (Cert.KernelIdeal.Run.A_eq m) (Cert.KernelIdeal.RunI.run_main m ρ payI)

open Cert.ReferenceIdeal in
/-- The reference's run ends with its result array at the layer-normalised array (quotient form) of the argument
    arrays, the arguments unchanged: its run over the operations' composed term, and that term read index by index. -/
theorem ref_run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v28) = Cert.LayerNorm.G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run Cert.ReferenceIdeal.defs _ _).mono (fun _ h c => ⟨(h c).1.trans (Cert.ReferenceIdeal.RefRun.refTerm_eq_G _ _ _ _), (h c).2⟩)
    (Cert.ReferenceIdeal.RefRun.run_term (F := Ideal) m ρ)

/-- The reference runs to the end and keeps its arguments: its run with the result dropped. -/
theorem frame_ri : Cert.frame_ReferenceIdeal := fun m ρ _ =>
  (θ_run Cert.ReferenceIdeal.defs _ _).mono (fun _ h c => (h c).2) (ref_run m ρ)

/-- No operation of the kernel was rewritten for the ideal reading. -/
theorem preserves : Cert.preserves_Kernel_KernelIdeal := trivial

open Cert.KernelIdeal Cert.KernelIdeal.Gen in
/-- The idealised kernel's run ends with its result array at the layer-normalised array (reciprocal-root form) of the
    argument arrays, the arguments unchanged. -/
theorem kernel_run (m : (ℓ : Loc nD τ sig) → Buf (Elt Ideal) ℓ) (ρ : Dev nD → PrngReg) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v4) = Cert.LayerNorm.GK (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v4 (Pipeline.mem_restRefs_of main_v4 (by decide) (by decide))).trans (Cert.KernelIdeal.RunValue.result_eq m payV c),
      ((h c).2 main_arg0 (Pipeline.mem_restRefs_of main_arg0 (by decide) (by decide))).trans (W_main_arg0 m (Cert.KernelIdeal.Run.dats m) c),
      ((h c).1 1).trans (((Cert.KernelIdeal.Run.dats m 0 c).arrAt_in 1 rfl _).trans ((Cert.KernelIdeal.Run.A_eq m c 1).trans (V_main_arg1 m c))),
      ((h c).2 main_arg2 (Pipeline.mem_restRefs_of main_arg2 (by decide) (by decide))).trans (W_main_arg2 m (Cert.KernelIdeal.Run.dats m) c),
      ((h c).2 main_arg3 (Pipeline.mem_restRefs_of main_arg3 (by decide) (by decide))).trans (W_main_arg3 m (Cert.KernelIdeal.Run.dats m) c)⟩)
    (Cert.KernelIdeal.RunI.run_main m ρ payI)

/-- From memories agreeing on the arguments both programs end with one result array: the kernel's is the
    reciprocal-root form, the reference's the quotient form, of the same finite arguments. -/
theorem algebraic : Cert.algebraic_KernelIdeal_ReferenceIdeal := by
  intro m ρ m' ρ' hpre hagree
  refine ⟨fun c => Cert.LayerNorm.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun _ h c =>
      ⟨(h c).1.trans (Cert.LayerNorm.GK_eq_G _ _ _ _ (Cert.LayerNorm.Finite.real_of_pre m hpre c).1 (Cert.LayerNorm.Finite.real_of_pre m hpre c).2), (h c).2⟩)
      (kernel_run m ρ)
  · refine (θ_run Cert.ReferenceIdeal.defs _ _).mono (fun _ h c => ⟨(h c).1.trans ?_, (h c).2⟩) (ref_run m' ρ')
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
